-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x500000 : Shape := ⟨2, ![2, 500000]⟩
abbrev S384x128 : Shape := ⟨2, ![384, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S2x500000 : S_.BroadcastsInDim S2x500000 (![] : Fin 0 → Fin S2x500000.rank)
  reducesTo_S2x500000_S_d0_1 : S2x500000.ReducesTo [0, 1] S_

variable [Facts]

def fn_part1 {F : FTy → Type} [FloatOps F] (main_arg1 : IVec S2x500000 32) (main_arg5 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_c_8 : IVec S_ 32 := constantI S_ 32 4294867296#32
  let main_v24 : IVec S2x500000 32 := broadcastInDim S2x500000 ![] bcast_S_S2x500000 main_c_8
  let main_v25 : IVec S2x500000 1 := cmpi .sge main_arg1 main_v24
  let main_c_9 : IVec S_ 32 := constantI S_ 32 100000#32
  let main_v26 : IVec S2x500000 32 := broadcastInDim S2x500000 ![] bcast_S_S2x500000 main_c_9
  let main_v27 : IVec S2x500000 1 := cmpi .slt main_arg1 main_v26
  let main_v28 : IVec S2x500000 1 := andi main_v25 main_v27
  let main_c_10 : IVec S_ 1 := constantI S_ 1 1#1
  let main_v29 : IVec S_ 1 := (fun x v => Host.reduce IntOp.andi x v reducesTo_S2x500000_S_d0_1 h_S_) main_v28 main_c_10
  let main_v30 : IVec S_ 1 := andi main_v23 main_v29
  main_v30

def fn {F : FTy → Type} [FloatOps F] (main_arg0 : FVec F S100000x128 .f32) (main_arg1 : IVec S2x500000 32) (main_arg2 : FVec F S384x128 .f32) (main_arg3 : FVec F S128 .f32) (main_arg4 : FVec F S128x1 .f32) (main_arg5 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S384x128 .f32 := Host.absf main_arg2
  let main_cst_0 : FVec F S_ .f32 := constant S_ .f32 0x7F800000#32
  let main_v5 : FVec F S384x128 .f32 := broadcastInDim S384x128 ![] bcast_S_S384x128 main_cst_0
  let main_v6 : IVec S384x128 1 := cmpf .olt main_v4 main_v5
  let main_c_1 : IVec S_ 1 := constantI S_ 1 1#1
  let main_v7 : IVec S_ 1 := (fun x v => Host.reduce IntOp.andi x v reducesTo_S384x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg1 main_arg5 main_v13 main_v16
-- ==== Kernel.lean ====
abbrev S100000x128 : Shape := ⟨2, ![100000, 128]⟩
abbrev S2x500000 : Shape := ⟨2, ![2, 500000]⟩
abbrev S384x128 : Shape := ⟨2, ![384, 128]⟩
abbrev S128 : Shape := ⟨1, ![128]⟩
abbrev S128x1 : Shape := ⟨2, ![128, 1]⟩
abbrev S1 : Shape := ⟨1, ![1]⟩
abbrev S1x500000 : Shape := ⟨2, ![1, 500000]⟩
abbrev S500000 : Shape := ⟨1, ![500000]⟩
abbrev S_ : Shape := ⟨0, ![]⟩
abbrev S507904 : Shape := ⟨1, ![507904]⟩
abbrev S507904x1 : Shape := ⟨2, ![507904, 1]⟩
abbrev S1x1 : Shape := ⟨2, ![1, 1]⟩
abbrev S507904x128 : Shape := ⟨2, ![507904, 128]⟩
abbrev S128x128 : Shape := ⟨2, ![128, 128]⟩
abbrev S8192x128 : Shape := ⟨2, ![8192, 128]⟩
abbrev S8192 : Shape := ⟨1, ![8192]⟩
abbrev S1x128 : Shape := ⟨2, ![1, 128]⟩
abbrev S8192x1 : Shape := ⟨2, ![8192, 1]⟩

abbrev nBuf : Space → Nat
  | .hbm => 73
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S2x500000, .i32⟩
  | .hbm, ⟨2, _⟩ => ⟨S384x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1x500000, .i32⟩
  | .hbm, ⟨7, _⟩ => ⟨S500000, .i32⟩
  | .hbm, ⟨8, _⟩ => ⟨S1x500000, .i32⟩
  | .hbm, ⟨9, _⟩ => ⟨S500000, .i32⟩
  | .hbm, ⟨10, _⟩ => ⟨S_, .i32⟩
  | .hbm, ⟨11, _⟩ => ⟨S_, .i32⟩
  | .hbm, ⟨12, _⟩ => ⟨S507904, .i32⟩
  | .hbm, ⟨13, _⟩ => ⟨S_, .i32⟩
  | .hbm, ⟨14, _⟩ => ⟨S_, .i32⟩
  | .hbm, ⟨15, _⟩ => ⟨S507904, .i32⟩
  | .hbm, ⟨16, _⟩ => ⟨S_, .i32⟩
  | .hbm, ⟨17, _⟩ => ⟨S507904, .i32⟩
  | .hbm, ⟨18, _⟩ => ⟨S507904, .i1⟩
  | .hbm, ⟨19, _⟩ => ⟨S_, .i32⟩
  | .hbm, ⟨20, _⟩ => ⟨S507904, .i32⟩
  | .hbm, ⟨21, _⟩ => ⟨S507904, .i32⟩
  | .hbm, ⟨22, _⟩ => ⟨S507904, .i32⟩
  | .hbm, ⟨23, _⟩ => ⟨S507904x1, .i32⟩
  | .hbm, ⟨24, _⟩ => ⟨S1, .i32⟩
  | .hbm, ⟨25, _⟩ => ⟨S_, .i32⟩
  | .hbm, ⟨26, _⟩ => ⟨S507904x1, .i32⟩
  | .hbm, ⟨27, _⟩ => ⟨S507904x1, .i1⟩
  | .hbm, ⟨28, _⟩ => ⟨S1x1, .i32⟩
  | .hbm, ⟨29, _⟩ => ⟨S507904x1, .i32⟩
  | .hbm, ⟨30, _⟩ => ⟨S507904x1, .i1⟩
  | .hbm, ⟨31, _⟩ => ⟨S507904x1, .i1⟩
  | .hbm, ⟨32, _⟩ => ⟨S_, .i1⟩
  | .hbm, ⟨33, _⟩ => ⟨S507904, .i1⟩
  | .hbm, ⟨34, _⟩ => ⟨S507904x128, .f32⟩
  | .hbm, ⟨35, _⟩ => ⟨S507904x128, .i1⟩
  | .hbm, ⟨36, _⟩ => ⟨S_, .f32⟩
  | .hbm, ⟨37, _⟩ => ⟨S507904x128, .f32⟩
  | .hbm, ⟨38, _⟩ => ⟨S507904x128, .f32⟩
  | .hbm, ⟨39, _⟩ => ⟨S507904x128, .bf16⟩
  | .hbm, ⟨40, _⟩ => ⟨S_, .i32⟩
  | .hbm, ⟨41, _⟩ => ⟨S507904, .i32⟩
  | .hbm, ⟨42, _⟩ => ⟨S507904, .i1⟩
  | .hbm, ⟨43, _⟩ => ⟨S_, .i32⟩
  | .hbm, ⟨44, _⟩ => ⟨S507904, .i32⟩
  | .hbm, ⟨45, _⟩ => ⟨S507904, .i32⟩
  | .hbm, ⟨46, _⟩ => ⟨S507904, .i32⟩
  | .hbm, ⟨47, _⟩ => ⟨S507904x1, .i32⟩
  | .hbm, ⟨48, _⟩ => ⟨S1, .i32⟩
  | .hbm, ⟨49, _⟩ => ⟨S_, .i32⟩
  | .hbm, ⟨50, _⟩ => ⟨S507904x1, .i32⟩
  | .hbm, ⟨51, _⟩ => ⟨S507904x1, .i1⟩
  | .hbm, ⟨52, _⟩ => ⟨S1x1, .i32⟩
  | .hbm, ⟨53, _⟩ => ⟨S507904x1, .i32⟩
  | .hbm, ⟨54, _⟩ => ⟨S507904x1, .i1⟩
  | .hbm, ⟨55, _⟩ => ⟨S507904x1, .i1⟩
  | .hbm, ⟨56, _⟩ => ⟨S_, .i1⟩
  | .hbm, ⟨57, _⟩ => ⟨S507904, .i1⟩
  | .hbm, ⟨58, _⟩ => ⟨S507904x128, .f32⟩
  | .hbm, ⟨59, _⟩ => ⟨S507904x128, .i1⟩
  | .hbm, ⟨60, _⟩ => ⟨S_, .f32⟩
  | .hbm, ⟨61, _⟩ => ⟨S507904x128, .f32⟩
  | .hbm, ⟨62, _⟩ => ⟨S507904x128, .f32⟩
  | .hbm, ⟨63, _⟩ => ⟨S507904x128, .bf16⟩
  | .hbm, ⟨64, _⟩ => ⟨S128x128, .f32⟩
  | .hbm, ⟨65, _⟩ => ⟨S128x128, .bf16⟩
  | .hbm, ⟨66, _⟩ => ⟨S128x128, .f32⟩
  | .hbm, ⟨67, _⟩ => ⟨S128x128, .bf16⟩
  | .hbm, ⟨68, _⟩ => ⟨S128x128, .f32⟩
  | .hbm, ⟨69, _⟩ => ⟨S128x128, .bf16⟩
  | .hbm, ⟨70, _⟩ => ⟨S128x1, .bf16⟩
  | .hbm, ⟨71, _⟩ => ⟨S507904, .f32⟩
  | .hbm, ⟨72, _⟩ => ⟨S500000, .f32⟩
  | .local _ .vmem, ⟨0, _⟩ => ⟨S8192x128, .bf16⟩
  | .local _ .vmem, ⟨1, _⟩ => ⟨S8192x128, .bf16⟩
  | .local _ .vmem, ⟨2, _⟩ => ⟨S8192x128, .bf16⟩
  | .local _ .vmem, ⟨3, _⟩ => ⟨S8192x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128, .f32⟩
  | .local _ .vmem, ⟨8, _⟩ => ⟨S128x1, .bf16⟩
  | .local _ .vmem, ⟨9, _⟩ => ⟨S1, .f32⟩
  | .local _ .vmem, ⟨10, _⟩ => ⟨S8192, .f32⟩
  | .local _ .vmem, ⟨11, _⟩ => ⟨S8192, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_call2_c : Ref sig .tc := ⟨.hbm, 16, rfl⟩
abbrev main_call2_v0 : Ref sig .tc := ⟨.hbm, 17, rfl⟩
abbrev main_call2_v1 : Ref sig .tc := ⟨.hbm, 18, rfl⟩
abbrev main_call2_c_0 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_call2_v5 : Ref sig .tc := ⟨.hbm, 23, rfl⟩
abbrev main_call2_c_1 : Ref sig .tc := ⟨.hbm, 24, rfl⟩
abbrev main_call2_c_2 : Ref sig .tc := ⟨.hbm, 25, rfl⟩
abbrev main_call2_v6 : Ref sig .tc := ⟨.hbm, 26, rfl⟩
abbrev main_call2_v7 : Ref sig .tc := ⟨.hbm, 27, rfl⟩
abbrev main_call2_v8 : Ref sig .tc := ⟨.hbm, 28, rfl⟩
abbrev main_call2_v9 : Ref sig .tc := ⟨.hbm, 29, rfl⟩
abbrev main_call2_v10 : Ref sig .tc := ⟨.hbm, 30, rfl⟩
abbrev main_call2_v11 : Ref sig .tc := ⟨.hbm, 31, rfl⟩
abbrev main_call2_c_3 : Ref sig .tc := ⟨.hbm, 32, rfl⟩
abbrev main_call2_v12 : Ref sig .tc := ⟨.hbm, 33, rfl⟩
abbrev main_call2_v13 : Ref sig .tc := ⟨.hbm, 34, rfl⟩
abbrev main_call2_v14 : Ref sig .tc := ⟨.hbm, 35, rfl⟩
abbrev main_call2_cst : Ref sig .tc := ⟨.hbm, 36, rfl⟩
abbrev main_call2_v15 : Ref sig .tc := ⟨.hbm, 37, rfl⟩
abbrev main_v6 : Ref sig .tc := ⟨.hbm, 38, rfl⟩
abbrev main_v7 : Ref sig .tc := ⟨.hbm, 39, rfl⟩
abbrev main_call3_c : Ref sig .tc := ⟨.hbm, 40, rfl⟩
abbrev main_call3_v0 : Ref sig .tc := ⟨.hbm, 41, rfl⟩
abbrev main_call3_v1 : Ref sig .tc := ⟨.hbm, 42, rfl⟩
abbrev main_call3_c_0 : Ref sig .tc := ⟨.hbm, 43, rfl⟩
abbrev main_call3_v2 : Ref sig .tc := ⟨.hbm, 44, rfl⟩
abbrev main_call3_v3 : Ref sig .tc := ⟨.hbm, 45, rfl⟩
abbrev main_call3_v4 : Ref sig .tc := ⟨.hbm, 46, rfl⟩
abbrev main_call3_v5 : Ref sig .tc := ⟨.hbm, 47, rfl⟩
abbrev main_call3_c_1 : Ref sig .tc := ⟨.hbm, 48, rfl⟩
abbrev main_call3_c_2 : Ref sig .tc := ⟨.hbm, 49, rfl⟩
abbrev main_call3_v6 : Ref sig .tc := ⟨.hbm, 50, rfl⟩
abbrev main_call3_v7 : Ref sig .tc := ⟨.hbm, 51, rfl⟩
abbrev main_call3_v8 : Ref sig .tc := ⟨.hbm, 52, rfl⟩
abbrev main_call3_v9 : Ref sig .tc := ⟨.hbm, 53, rfl⟩
abbrev main_call3_v10 : Ref sig .tc := ⟨.hbm, 54, rfl⟩
abbrev main_call3_v11 : Ref sig .tc := ⟨.hbm, 55, rfl⟩
abbrev main_call3_c_3 : Ref sig .tc := ⟨.hbm, 56, rfl⟩
abbrev main_call3_v12 : Ref sig .tc := ⟨.hbm, 57, rfl⟩
abbrev main_call3_v13 : Ref sig .tc := ⟨.hbm, 58, rfl⟩
abbrev main_call3_v14 : Ref sig .tc := ⟨.hbm, 59, rfl⟩
abbrev main_call3_cst : Ref sig .tc := ⟨.hbm, 60, rfl⟩
abbrev main_call3_v15 : Ref sig .tc := ⟨.hbm, 61, rfl⟩
abbrev main_v8 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![62], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  pads_S500000_S507904_079040 : S500000.Pads (![0] : Fin 1 → Nat) ![7904] ![0] S507904
  h_S_ : 0 < S_.numel
  bcast_S_S507904 : S_.BroadcastsInDim S507904 (![] : Fin 0 → Fin S507904.rank)
  bcast_S507904_S507904x1_0 : S507904.BroadcastsInDim S507904x1 (![0] : Fin 1 → Fin S507904x1.rank)
  bcast_S_S507904x1 : S_.BroadcastsInDim S507904x1 (![] : Fin 0 → Fin S507904x1.rank)
  bcast_S1_S1x1_1 : S1.BroadcastsInDim S1x1 (![1] : Fin 1 → Fin S1x1.rank)
  bcast_S1x1_S507904x1_0_1 : S1x1.BroadcastsInDim S507904x1 (![0, 1] : Fin 2 → Fin S507904x1.rank)
  reducesTo_S507904x1_S507904_d1 : S507904x1.ReducesTo [1] S507904
  bcast_S507904_S507904x128_0 : S507904.BroadcastsInDim S507904x128 (![0] : Fin 1 → Fin S507904x128.rank)
  bcast_S_S507904x128 : S_.BroadcastsInDim S507904x128 (![] : Fin 0 → Fin S507904x128.rank)
  bitsLt_bf16_f32 : FTy.bits .bf16 < FTy.bits .f32
  slices_S384x128_S128x128_0_0 : S384x128.Slices ![0, 0] S128x128
  slices_S384x128_S128x128_128_0 : S384x128.Slices ![128, 0] S128x128
  slices_S384x128_S128x128_256_0 : S384x128.Slices ![256, 0] S128x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1_S1_0 : ∀ a, (![0] : Fin 1 → Nat) a + S1.size a ≤ S1.size a
  h_S1 : 0 < S1.numel
  shapeCasts_S1_S1x1 : S1.ShapeCasts S1x1
  broadcasts_S1x1_S8192x1 : S1x1.Broadcasts S8192x1
  shapeCasts_S8192x1_S8192 : S8192x1.ShapeCasts S8192
  inb_S8192_S8192_0 : ∀ a, (![0] : Fin 1 → Nat) a + S8192.size a ≤ S8192.size a
  h_S8192 : 0 < S8192.numel
  slices_S507904_S500000_0 : S507904.Slices ![0] S500000
  gather_S100000x128_S507904x1_S507904x128_1_0_n_n_0_1_1128_wf : GatherDims.WF S100000x128 S507904x1 S507904x128 [1] [0] [] [0] [] 1 ![1, 128]
  dot_S8192x128_S128x128_S8192x128_1_0_0_1_n_n_wf : DotDims.WF S8192x128 S128x128 S8192x128 [1] [0] [0] [1] [] []
  dot_S8192x128_S128x1_S8192x1_1_0_0_1_n_n_wf : DotDims.WF S8192x128 S128x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S507904x128.size a
  hwx0_0 : ∀ i : grid0.Coords, EltTy.bits .bf16 = 32 ∨ (Rect.block (s := S507904x128) S8192x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S507904x128.size a
  hwx0_1 : ∀ i : grid0.Coords, EltTy.bits .bf16 = 32 ∨ (Rect.block (s := S507904x128) S8192x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S128x1.size a
  hwx0_6 : ∀ i : grid0.Coords, EltTy.bits .bf16 = 32 ∨ (Rect.block (s := S128x1) S128x1.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8192.size a ≤ S507904.size a
  hwx0_8 : ∀ i : grid0.Coords, EltTy.bits .f32 = 32 ∨ (Rect.block (s := S507904) S8192.size (cc0_transform_8 i) (hinb0_8 i)).WholeWords (EltTy.packing .f32)

variable [Facts₀]

def gather_S100000x128_S507904x1_S507904x128_1_0_n_n_0_1_1128 : GatherDims S100000x128 S507904x1 S507904x128 where
  offsetDims := [1]
  collapsedSliceDims := [0]
  operandBatchingDims := []
  startIndicesBatchingDims := []
  startIndexMap := [0]
  indexVectorDim := 1
  sliceSizes := ![1, 128]
  wf := gather_S100000x128_S507904x1_S507904x128_1_0_n_n_0_1_1128_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf

abbrev win0_0 : Pipeline.Window sig grid0 :=
  Pipeline.Window.ofSpec (Memref.whole main_v7) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S128x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S8192.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x500000 : Shape := ⟨2, ![2, 500000]⟩
abbrev S384x128 : Shape := ⟨2, ![384, 128]⟩
abbrev S128 : Shape := ⟨1, ![128]⟩
abbrev S128x1 : Shape := ⟨2, ![128, 1]⟩
abbrev S1 : Shape := ⟨1, ![1]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S500000x384 : Shape := ⟨2, ![500000, 384]⟩
abbrev S1x128 : Shape := ⟨2, ![1, 128]⟩
abbrev S1x1 : Shape := ⟨2, ![1, 1]⟩

abbrev nBuf : Space → Nat
  | .hbm => 43
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x500000, .i32⟩
  | .hbm, ⟨2, _⟩ => ⟨S384x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1x500000, .i32⟩
  | .hbm, ⟨7, _⟩ => ⟨S500000, .i32⟩
  | .hbm, ⟨8, _⟩ => ⟨S1x500000, .i32⟩
  | .hbm, ⟨9, _⟩ => ⟨S500000, .i32⟩
  | .hbm, ⟨10, _⟩ => ⟨S_, .i32⟩
  | .hbm, ⟨11, _⟩ => ⟨S500000, .i32⟩
  | .hbm, ⟨12, _⟩ => ⟨S500000, .i1⟩
  | .hbm, ⟨13, _⟩ => ⟨S_, .i32⟩
  | .hbm, ⟨14, _⟩ => ⟨S500000, .i32⟩
  | .hbm, ⟨15, _⟩ => ⟨S500000, .i32⟩
  | .hbm, ⟨16, _⟩ => ⟨S500000, .i32⟩
  | .hbm, ⟨17, _⟩ => ⟨S500000x1, .i32⟩
  | .hbm, ⟨18, _⟩ => ⟨S500000x128, .f32⟩
  | .hbm, ⟨19, _⟩ => ⟨S_, .i32⟩
  | .hbm, ⟨20, _⟩ => ⟨S500000, .i32⟩
  | .hbm, ⟨21, _⟩ => ⟨S500000, .i1⟩
  | .hbm, ⟨22, _⟩ => ⟨S_, .i32⟩
  | .hbm, ⟨23, _⟩ => ⟨S500000, .i32⟩
  | .hbm, ⟨24, _⟩ => ⟨S500000, .i32⟩
  | .hbm, ⟨25, _⟩ => ⟨S500000, .i32⟩
  | .hbm, ⟨26, _⟩ => ⟨S500000x1, .i32⟩
  | .hbm, ⟨27, _⟩ => ⟨S500000x128, .f32⟩
  | .hbm, ⟨28, _⟩ => ⟨S500000x128, .f32⟩
  | .hbm, ⟨29, _⟩ => ⟨S500000x128, .f32⟩
  | .hbm, ⟨30, _⟩ => ⟨S500000x384, .f32⟩
  | .hbm, ⟨31, _⟩ => ⟨S500000x128, .f32⟩
  | .hbm, ⟨32, _⟩ => ⟨S1x128, .f32⟩
  | .hbm, ⟨33, _⟩ => ⟨S500000x128, .f32⟩
  | .hbm, ⟨34, _⟩ => ⟨S500000x128, .f32⟩
  | .hbm, ⟨35, _⟩ => ⟨S_, .f32⟩
  | .hbm, ⟨36, _⟩ => ⟨S500000x128, .f32⟩
  | .hbm, ⟨37, _⟩ => ⟨S500000x128, .f32⟩
  | .hbm, ⟨38, _⟩ => ⟨S500000x1, .f32⟩
  | .hbm, ⟨39, _⟩ => ⟨S1x1, .f32⟩
  | .hbm, ⟨40, _⟩ => ⟨S500000x1, .f32⟩
  | .hbm, ⟨41, _⟩ => ⟨S500000x1, .f32⟩
  | .hbm, ⟨42, _⟩ => ⟨S500000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_cst : Ref sig .tc := ⟨.hbm, 35, rfl⟩
abbrev main_call0_v0 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x128_S500000x384_d1 : Shape.Concatenates [S500000x128, S500000x128, S500000x128] S500000x384 1
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S500000 : S500000x1.ShapeCasts S500000
  gather_S100000x128_S500000x1_S500000x128_1_0_n_n_0_1_1128_wf : GatherDims.WF S100000x128 S500000x1 S500000x128 [1] [0] [] [0] [] 1 ![1, 128]
  dot_S500000x384_S384x128_S500000x128_1_0_0_1_n_n_wf : DotDims.WF S500000x384 S384x128 S500000x128 [1] [0] [0] [1] [] []
  dot_S500000x128_S128x1_S500000x1_1_0_0_1_n_n_wf : DotDims.WF S500000x128 S128x1 S500000x1 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x384_S384x128_S500000x128_1_0_0_1_n_n : DotDims S500000x384 S384x128 S500000x128 where
  lhsContracting := [1]
  rhsContracting := [0]
  lhsNonContracting := [0]
  rhsNonContracting := [1]
  lhsBatch := []
  rhsBatch := []
  wf := dot_S500000x384_S384x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf

class Facts : Prop extends Facts₀ where

variable [Facts]
-- ==== Proof.Spec.lean ====
/-
  The edge decoder as ONE function of the argument arrays, over the extended reals.
  For edge `i` with end-point words `u = e[0, i]`, `v = e[1, i]`: each word is read as a signed row number, a negative
  one counted from the end (`+ 100000`), the result clamped into the table's rows; `zu`, `zv` are those rows of `z`.
  The hidden layer is `max (zu · W1[0:128] + zv · W1[128:256] + |zu − zv| · W1[256:384] + b1) 0` and the logit
  `hidden · W2 + b2`. A sum over the 384 rows of `W1` is the sum of its three 128-row parts (addition of extended
  reals is commutative and associative, so no finiteness is needed for that).
-/
import Idealize.ShloMosaic.PureOps.Ideal
import Idealize.ShloMosaic.Lib.ValueIdx
import Idealize.ShloMosaic.Lib.ReduceAll

noncomputable section

namespace Cert.EdgeMlp

open Idealize.ShloMosaic Idealize.ShloMosaic.ValueIdx

/-! ## Index words -/

/-- A row word as the programs normalise it: a negative word counts from the end of the 100000 rows. -/
def wrapWord (u : BitVec 32) : BitVec 32 :=
  Scalar.select (IntOp.cmpi .slt u 0#32) (IntOp.addi u 100000#32) u

/-- The row a gather reads for the word `u`: the normalised word as a signed integer, clamped into [0, 99999]. -/
def rowOf (u : BitVec 32) : Fin 100000 := ⟨min (wrapWord u).toInt.toNat (100000 - 1), by omega⟩

/-- The precondition's test of one word: −100000 ≤ u < 100000, signed. -/
def rangeWord (u : BitVec 32) : BitVec 1 :=
  IntOp.andi (IntOp.cmpi .sge u 4294867296#32) (IntOp.cmpi .slt u 100000#32)

/-- The fill-mode gather's own test of the normalised word: 0 ≤ w ≤ 99999, signed. -/
def maskWord (u : BitVec 32) : BitVec 1 :=
  IntOp.andi (IntOp.cmpi .sge (wrapWord u) 0#32) (IntOp.cmpi .sle (wrapWord u) 99999#32)

/-- An `i1` made from a Boolean is 1 exactly when the Boolean holds. -/
theorem ofBool_eq_one (b : Bool) : BitVec.ofBool b = 1#1 ↔ b = true := by cases b <;> decide

/-- The signed comparisons of two words, read as comparisons of their integer values. -/
theorem cmpi_slt_iff (x y : BitVec 32) : IntOp.cmpi .slt x y = 1#1 ↔ x.toInt < y.toInt := by
  show BitVec.ofBool (x.slt y) = 1#1 ↔ _
  rw [ofBool_eq_one]; simp [BitVec.slt]
theorem cmpi_sle_iff (x y : BitVec 32) : IntOp.cmpi .sle x y = 1#1 ↔ x.toInt ≤ y.toInt := by
  show BitVec.ofBool (x.sle y) = 1#1 ↔ _
  rw [ofBool_eq_one]; simp [BitVec.sle]
theorem cmpi_sge_iff (x y : BitVec 32) : IntOp.cmpi .sge x y = 1#1 ↔ y.toInt ≤ x.toInt := by
  show BitVec.ofBool (y.sle x) = 1#1 ↔ _
  rw [ofBool_eq_one]; simp [BitVec.sle]

/-- A word in [−100000, 100000), normalised, lies in [0, 99999]. -/
theorem wrapWord_toInt (u : BitVec 32) (hlo : (-100000 : Int) ≤ u.toInt) (hhi : u.toInt < 100000) :
    0 ≤ (wrapWord u).toInt ∧ (wrapWord u).toInt ≤ 99999 := by
  have e0 : (0#32 : BitVec 32).toInt = 0 := by decide
  unfold wrapWord
  by_cases hneg : u.toInt < 0
  · rw [(cmpi_slt_iff u 0#32).2 (by rw [e0]; exact hneg), select_one]
    have hw : (IntOp.addi u 100000#32).toInt = u.toInt + 100000 := by
      unfold IntOp.addi
      rw [BitVec.toInt_add]
      have e : (100000#32 : BitVec 32).toInt = 100000 := by decide
      rw [e]
      exact Int.bmod_eq_of_le (by omega) (by omega)
    rw [hw]; omega
  · have hc : IntOp.cmpi .slt u 0#32 = 0#1 :=
      eq_zero_of_ne_one (fun h => hneg (by have := (cmpi_slt_iff u 0#32).1 h; rw [e0] at this; exact this))
    rw [hc, select_zero]
    omega

/-- A word in [−100000, 100000) normalises into [0, 99999]: the fill-mode gather keeps its row. -/
theorem maskWord_of_rangeWord (u : BitVec 32) (h : rangeWord u = 1#1) : maskWord u = 1#1 := by
  unfold rangeWord at h
  obtain ⟨h1, h2⟩ := IntOp.andi_eq_one.1 h
  have elo : (4294867296#32 : BitVec 32).toInt = -100000 := by decide
  have ehi : (100000#32 : BitVec 32).toInt = 100000 := by decide
  have hlo : (-100000 : Int) ≤ u.toInt := by have := (cmpi_sge_iff _ _).1 h1; rw [elo] at this; exact this
  have hhi : u.toInt < 100000 := by have := (cmpi_slt_iff _ _).1 h2; rw [ehi] at this; exact this
  obtain ⟨w0, w1⟩ := wrapWord_toInt u hlo hhi
  unfold maskWord
  refine IntOp.andi_eq_one.2 ⟨(cmpi_sge_iff _ _).2 ?_, (cmpi_sle_iff _ _).2 ?_⟩
  · have e0 : (0#32 : BitVec 32).toInt = 0 := by decide
    rw [e0]; exact w0
  · have e9 : (99999#32 : BitVec 32).toInt = 99999 := by decide
    rw [e9]; exact w1

/-! ## The function -/

/-- Row `rowOf u` of the node table. -/
def nodeRow (z : FVec Ideal ⟨2, ![100000, 128]⟩ .f32) (u : BitVec 32) (k : Fin 128) : EReal := z (ix2 (rowOf u) k)

/-- A hidden unit from two node rows `zu`, `zv`, the three 128-row parts `wa`, `wb`, `wc` of the first weight matrix and
    the bias: `max (zu · wa + zv · wb + |zu − zv| · wc + b1) 0` at column `j`. -/
def hiddenOf (zu zv : Fin 128 → EReal) (wa wb wc : Fin 128 → Fin 128 → EReal) (b1 : Fin 128 → EReal) (j : Fin 128) : EReal :=
  max ((((∑ k : Fin 128, zu k * wa k j) + ∑ k : Fin 128, zv k * wb k j)
      + ∑ k : Fin 128, max (zu k - zv k) (-(zu k - zv k)) * wc k j) + b1 j)
    (Ideal.ofBits .f32 0x00000000#32)

/-- The logit from the hidden layer: `hidden · w2 + b2`. -/
def logitOf (zu zv : Fin 128 → EReal) (wa wb wc : Fin 128 → Fin 128 → EReal) (b1 : Fin 128 → EReal) (w2 : Fin 128 → EReal)
    (b2 : EReal) : EReal :=
  (∑ j : Fin 128, hiddenOf zu zv wa wb wc b1 j * w2 j) + b2

/-- The logit of an edge with end-point words `u`, `v`: the rows are the table's, the weight parts rows 0–127, 128–255 and
    256–383 of `W1`. -/
def edgeLogit (z : FVec Ideal ⟨2, ![100000, 128]⟩ .f32) (W1 : FVec Ideal ⟨2, ![384, 128]⟩ .f32) (b1 : FVec Ideal ⟨1, ![128]⟩ .f32)
    (W2 : FVec Ideal ⟨2, ![128, 1]⟩ .f32) (b2 : FVec Ideal ⟨1, ![1]⟩ .f32) (u v : BitVec 32) : EReal :=
  logitOf (nodeRow z u) (nodeRow z v) (fun k j => W1 (ix2 ⟨k.val, by omega⟩ j)) (fun k j => W1 (ix2 ⟨128 + k.val, by omega⟩ j))
    (fun k j => W1 (ix2 ⟨256 + k.val, by omega⟩ j)) (fun j => b1 (ix1 j)) (fun j => W2 (ix2 j 0)) (b2 (ix1 0))

/-- The result array: the logit of every edge. -/
def G (z : FVec Ideal ⟨2, ![100000, 128]⟩ .f32) (e : IVec ⟨2, ![2, 500000]⟩ 32) (W1 : FVec Ideal ⟨2, ![384, 128]⟩ .f32)
    (b1 : FVec Ideal ⟨1, ![128]⟩ .f32) (W2 : FVec Ideal ⟨2, ![128, 1]⟩ .f32) (b2 : FVec Ideal ⟨1, ![1]⟩ .f32) :
    FVec Ideal ⟨1, ![500000]⟩ .f32 :=
  fun i => edgeLogit z W1 b1 W2 b2 (e (ix2 0 (i 0))) (e (ix2 1 (i 0)))

/-! ## The one law: a sum over 384 is the sum of its three 128-parts -/

theorem sum_384_split {M : Type*} [AddCommMonoid M] (f : Fin 384 → M) :
    ∑ k : Fin 384, f k
      = (∑ k : Fin 128, f ⟨k.val, by omega⟩ + ∑ k : Fin 128, f ⟨128 + k.val, by omega⟩)
        + ∑ k : Fin 128, f ⟨256 + k.val, by omega⟩ := by
  have h := Fin.sum_univ_add (a := 128 + 128) (b := 128) (f : Fin (128 + 128 + 128) → M)
  rw [Fin.sum_univ_add (a := 128) (b := 128)] at h
  rw [show (∑ k : Fin 384, f k) = ∑ k : Fin (128 + 128 + 128), (f : Fin (128 + 128 + 128) → M) k from rfl, h]
  refine congrArg₂ (· + ·) (congrArg₂ (· + ·) ?_ ?_) ?_
  · exact Finset.sum_congr rfl fun k _ => congrArg f (Fin.ext rfl)
  · exact Finset.sum_congr rfl fun k _ => congrArg f (Fin.ext rfl)
  · exact Finset.sum_congr rfl fun k _ => congrArg f (Fin.ext rfl)

end Cert.EdgeMlp

end
-- ==== Proof.LibGatherRows2.lean ====
/-
  A row gather read at an index. What `x[idx]` of a matrix `x : [N, C]` at an integer vector `idx : [R]` lowers to:
  a gather with offset axis 1, collapsed axis 0, start index map [0], slice sizes [1, C] and the index vector on axis 1 of
  the indices as [R, 1]. Result element (r, c) is `x` at row `idx[r, 0]` — read as a signed integer and clamped
  into [0, N − 1] — and column c.
-/
import Idealize.ShloMosaic.Lib.ValueIdx

noncomputable section

namespace Cert.LibGatherRows2

open Idealize.ShloMosaic Idealize.ShloMosaic.ValueIdx

variable {α : Type}

/-- THE ROW GATHER READ AT (r, c): for any dimension numbers of that form (`d`, with its fields given by the
    hypotheses), the operand at the clamped row and column c. -/
theorem gather_rows2_apply {N C R w : Nat} (hN : 0 < N)
    (d : GatherDims ⟨2, ![N, C]⟩ ⟨2, ![R, 1]⟩ ⟨2, ![R, C]⟩)
    (hoff : d.offsetDims = [1]) (hcol : d.collapsedSliceDims = [0]) (hob : d.operandBatchingDims = [])
    (hsb : d.startIndicesBatchingDims = []) (hsim : d.startIndexMap = [0]) (hiv : d.indexVectorDim = 1)
    (hss : d.sliceSizes = ![1, C])
    (x : (⟨2, ![N, C]⟩ : Shape).Idx → α) (idx : IVec ⟨2, ![R, 1]⟩ w) (r : Fin R) (c : Fin C) :
    Host.gather d x idx (ix2 r c) = x (ix2 ⟨min (idx (ix2 r 0)).toInt.toNat (N - 1), by omega⟩ c) := by
  -- the record's fields are the hypotheses' literals
  obtain ⟨od, cd, ob, sb, sm, iv, ss, wf⟩ := d
  simp only at hoff hcol hob hsb hsim hiv hss
  subst hoff hcol hob hsb hsim hiv hss
  unfold Host.gather
  congr 1
  funext a
  refine Fin.ext ?_
  match a with
  | ⟨0, _⟩ =>
    -- axis 0 is collapsed and in the start index map: no batching or offset coordinate, the start is the clamped word
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨2, ![N, C]⟩) (si := ⟨2, ![R, 1]⟩) (t := ⟨2, ![R, C]⟩)
        ⟨[1], [0], [], [], [0], 1, ![1, C], wf⟩ (ix2 r c)
        ⟨List.idxOf (0 : Fin 2) [0], List.idxOf_lt_length_iff.2 (List.mem_singleton.mpr rfl)⟩ = ix2 r 0 := by
      funext b; refine Fin.ext ?_
      match b with
      | ⟨0, _⟩ => rfl
      | ⟨1, _⟩ => rfl
    rw [hsi]
    rfl
  | ⟨1, _⟩ =>
    -- axis 1 is the one kept axis: not in the start index map (start 0), no batching, offset the result's axis-1 coordinate
    show GatherDims.start _ _ idx 1 + GatherDims.batchCoord _ _ 1 + GatherDims.offCoord _ _ 1 = _
    rw [GatherDims.batchCoord_eq_zero _ _ _ List.not_mem_nil]
    unfold GatherDims.start
    rw [dif_neg (show (1 : Fin 2) ∉ [(0 : Fin 2)] by decide)]
    unfold GatherDims.offCoord
    rw [dif_pos ((GatherDims.mem_sKept _ _).mpr ⟨(show (1 : Fin 2) ∉ [(0 : Fin 2)] by decide), List.not_mem_nil⟩)]
    simp only [Nat.add_zero, Nat.zero_add]
    rfl

end Cert.LibGatherRows2

end
-- ==== Proof.RefSide.lean ====
/-
  The reference's result is the edge decoder `G` of the argument arrays, index by index.
-/
import proofs.«420864_j19636590477699_2_alg».proof.Proof.Gen.ReferenceIdeal.Read
import proofs.«420864_j19636590477699_2_alg».proof.Proof.Spec
import proofs.«420864_j19636590477699_2_alg».proof.Proof.LibGatherRows2

noncomputable section

namespace Cert.EdgeMlp.RefSide

open Idealize.ShloMosaic Idealize.ShloMosaic.ValueIdx Cert.ReferenceIdeal Cert.ReferenceIdeal.Read

/-! ## The index words -/

/-- The first end-point's row word of edge `r`: row 0 of the edge array at column `r`, a negative word moved up by 100000. -/
theorem word0 (x1 : IVec ⟨2, ![2, 500000]⟩ 32) (r : Fin 500000) :
    val_main_v8 (F := Ideal) x1 (ix1 r) = wrapWord (x1 (ix2 0 r)) := by
  -- the slice of row 0 followed by the reshape reads the edge array at (0, r): r % 500000 = r
  have e : idx_main_v0 (idx_main_v1 (ix1 r)) = ix2 0 r := funext fun a => Fin.ext (by
    match a with
    | ⟨0, _⟩ => rfl
    | ⟨1, _⟩ => exact Nat.mod_eq_of_lt r.isLt)
  rw [val_main_v8_apply, val_main_v5_apply, val_main_v7_apply, val_main_v1_apply, val_main_v0_apply,
    val_main_v4_apply, val_main_v6_apply, val_main_c_apply, val_main_c_0_apply, e]
  rfl

/-- The second end-point's row word of edge `r`: row 1 of the edge array at column `r`, normalised the same way. -/
theorem word1 (x1 : IVec ⟨2, ![2, 500000]⟩ 32) (r : Fin 500000) :
    val_main_v15 (F := Ideal) x1 (ix1 r) = wrapWord (x1 (ix2 1 r)) := by
  have e : idx_main_v2 (idx_main_v3 (ix1 r)) = ix2 1 r := funext fun a => Fin.ext (by
    match a with
    | ⟨0, _⟩ => rfl
    | ⟨1, _⟩ => exact Nat.mod_eq_of_lt r.isLt)
  rw [val_main_v15_apply, val_main_v12_apply, val_main_v14_apply, val_main_v3_apply, val_main_v2_apply,
    val_main_v11_apply, val_main_v13_apply, val_main_c_1_apply, val_main_c_2_apply, e]
  rfl

/-! ## The two gathered rows -/

/-- The first gather at (r, c): the node table at the clamped row of the first word, column `c`. -/
theorem row0 (x0 : FVec Ideal ⟨2, ![100000, 128]⟩ .f32) (x1 : IVec ⟨2, ![2, 500000]⟩ 32) (r : Fin 500000) (c : Fin 128) :
    val_main_v10 (F := Ideal) x0 x1 (ix2 r c) = nodeRow x0 (x1 (ix2 0 r)) c := by
  have e : idx_main_v9 (ix2 r (0 : Fin 1)) = ix1 r := funext fun a => Fin.ext (by
    match a with
    | ⟨0, _⟩ => rfl)
  -- the start index at (r, 0) is the normalised word
  have hw : val_main_v9 (F := Ideal) x1 (ix2 r (0 : Fin 1)) = wrapWord (x1 (ix2 0 r)) := by
    rw [val_main_v9_apply, e, word0]
  unfold val_main_v10
  rw [Cert.LibGatherRows2.gather_rows2_apply (by decide) gather_S100000x128_S500000x1_S500000x128_1_0_n_n_0_1_1128 rfl rfl rfl rfl rfl rfl rfl]
  unfold nodeRow rowOf
  -- both sides read the table at the same row number: the signed word clamped into [0, 99999]
  refine congrArg x0 (congrArg (fun a => ix2 a c) (Fin.ext ?_))
  show min (BitVec.toInt (val_main_v9 (F := Ideal) x1 (ix2 r (0 : Fin 1)))).toNat (100000 - 1)
    = min (wrapWord (x1 (ix2 0 r))).toInt.toNat (100000 - 1)
  rw [hw]

/-- The second gather at (r, c): the node table at the clamped row of the second word, column `c`. -/
theorem row1 (x0 : FVec Ideal ⟨2, ![100000, 128]⟩ .f32) (x1 : IVec ⟨2, ![2, 500000]⟩ 32) (r : Fin 500000) (c : Fin 128) :
    val_main_v17 (F := Ideal) x0 x1 (ix2 r c) = nodeRow x0 (x1 (ix2 1 r)) c := by
  have e : idx_main_v16 (ix2 r (0 : Fin 1)) = ix1 r := funext fun a => Fin.ext (by
    match a with
    | ⟨0, _⟩ => rfl)
  have hw : val_main_v16 (F := Ideal) x1 (ix2 r (0 : Fin 1)) = wrapWord (x1 (ix2 1 r)) := by
    rw [val_main_v16_apply, e, word1]
  unfold val_main_v17
  rw [Cert.LibGatherRows2.gather_rows2_apply (by decide) gather_S100000x128_S500000x1_S500000x128_1_0_n_n_0_1_1128 rfl rfl rfl rfl rfl rfl rfl]
  unfold nodeRow rowOf
  refine congrArg x0 (congrArg (fun a => ix2 a c) (Fin.ext ?_))
  show min (BitVec.toInt (val_main_v16 (F := Ideal) x1 (ix2 r (0 : Fin 1)))).toNat (100000 - 1)
    = min (wrapWord (x1 (ix2 1 r))).toInt.toNat (100000 - 1)
  rw [hw]

/-! ## The feature row: its three 128-column thirds -/

/-- Columns 0–127 of the feature row are the first gathered row. -/
theorem cat0 (x0 : FVec Ideal ⟨2, ![100000, 128]⟩ .f32) (x1 : IVec ⟨2, ![2, 500000]⟩ 32) (r : Fin 500000) (k : Fin 128) :
    val_main_v20 (F := Ideal) x0 x1 (ix2 r ⟨k.val, by omega⟩) = val_main_v10 (F := Ideal) x0 x1 (ix2 r k) := by
  unfold val_main_v20
  -- piece 0 spans columns [0, 128): column k is its column k
  exact concatenate_apply_piece (t := S500000x384) (1 : Fin 2)
    [⟨S500000x128, (val_main_v10 (F := Ideal) x0 x1)⟩, ⟨S500000x128, (val_main_v17 (F := Ideal) x0 x1)⟩, ⟨S500000x128, (val_main_v19 (F := Ideal) x0 x1)⟩]
    _ (ix2 r ⟨k.val, by omega⟩)
    0 (show (0 : Nat) < 3 by omega) S500000x128 (val_main_v10 (F := Ideal) x0 x1) rfl rfl 0 rfl (ix2 r k)
    (fun b hb => by
      match b with
      | ⟨0, _⟩ => rfl
      | ⟨1, _⟩ => exact absurd (Fin.ext rfl) hb)
    (Nat.zero_add _)

/-- Columns 128–255 of the feature row are the second gathered row. -/
theorem cat1 (x0 : FVec Ideal ⟨2, ![100000, 128]⟩ .f32) (x1 : IVec ⟨2, ![2, 500000]⟩ 32) (r : Fin 500000) (k : Fin 128) :
    val_main_v20 (F := Ideal) x0 x1 (ix2 r ⟨128 + k.val, by omega⟩) = val_main_v17 (F := Ideal) x0 x1 (ix2 r k) := by
  unfold val_main_v20
  -- piece 1 spans columns [128, 256): column 128 + k is its column k
  exact concatenate_apply_piece (t := S500000x384) (1 : Fin 2)
    [⟨S500000x128, (val_main_v10 (F := Ideal) x0 x1)⟩, ⟨S500000x128, (val_main_v17 (F := Ideal) x0 x1)⟩, ⟨S500000x128, (val_main_v19 (F := Ideal) x0 x1)⟩]
    _ (ix2 r ⟨128 + k.val, by omega⟩)
    1 (show (1 : Nat) < 3 by omega) S500000x128 (val_main_v17 (F := Ideal) x0 x1) rfl rfl 128 rfl (ix2 r k)
    (fun b hb => by
      match b with
      | ⟨0, _⟩ => rfl
      | ⟨1, _⟩ => exact absurd (Fin.ext rfl) hb)
    rfl

/-- Columns 256–383 of the feature row are the absolute difference of the two gathered rows. -/
theorem cat2 (x0 : FVec Ideal ⟨2, ![100000, 128]⟩ .f32) (x1 : IVec ⟨2, ![2, 500000]⟩ 32) (r : Fin 500000) (k : Fin 128) :
    val_main_v20 (F := Ideal) x0 x1 (ix2 r ⟨256 + k.val, by omega⟩) = val_main_v19 (F := Ideal) x0 x1 (ix2 r k) := by
  unfold val_main_v20
  -- piece 2 spans columns [256, 384): column 256 + k is its column k
  exact concatenate_apply_piece (t := S500000x384) (1 : Fin 2)
    [⟨S500000x128, (val_main_v10 (F := Ideal) x0 x1)⟩, ⟨S500000x128, (val_main_v17 (F := Ideal) x0 x1)⟩, ⟨S500000x128, (val_main_v19 (F := Ideal) x0 x1)⟩]
    _ (ix2 r ⟨256 + k.val, by omega⟩)
    2 (show (2 : Nat) < 3 by omega) S500000x128 (val_main_v19 (F := Ideal) x0 x1) rfl rfl 256 rfl (ix2 r k)
    (fun b hb => by
      match b with
      | ⟨0, _⟩ => rfl
      | ⟨1, _⟩ => exact absurd (Fin.ext rfl) hb)
    rfl

/-! ## The hidden unit and the logit -/

/-- The hidden layer at (r, j): the sum over the 384 feature columns splits into the three 128-sums of `hiddenOf`, over the
    first row, the second row and their absolute difference, each against its 128-row part of the first weight matrix. -/
theorem hidden_eq (x0 : FVec Ideal ⟨2, ![100000, 128]⟩ .f32) (x1 : IVec ⟨2, ![2, 500000]⟩ 32) (x2 : FVec Ideal ⟨2, ![384, 128]⟩ .f32)
    (x3 : FVec Ideal ⟨1, ![128]⟩ .f32) (r : Fin 500000) (j : Fin 128) :
    val_main_v25 (F := Ideal) x0 x1 x2 x3 (ix2 r j)
      = hiddenOf (nodeRow x0 (x1 (ix2 0 r))) (nodeRow x0 (x1 (ix2 1 r)))
          (fun k j => x2 (ix2 ⟨k.val, by omega⟩ j)) (fun k j => x2 (ix2 ⟨128 + k.val, by omega⟩ j))
          (fun k j => x2 (ix2 ⟨256 + k.val, by omega⟩ j)) (fun j => x3 (ix1 j)) j := by
  -- the contraction reads the feature row at (r, k) and the weight at (k, j); the bias is read at j
  have el : ∀ k : Fin 384, lidx_main_v21 (ix2 r j) k = ix2 r k := fun k => funext fun a => Fin.ext (by
    match a with
    | ⟨0, _⟩ => rfl
    | ⟨1, _⟩ => rfl)
  have er : ∀ k : Fin 384, ridx_main_v21 (ix2 r j) k = ix2 k j := fun k => funext fun a => Fin.ext (by
    match a with
    | ⟨0, _⟩ => rfl
    | ⟨1, _⟩ => rfl)
  have eb : idx_main_v22 (idx_main_v23 (ix2 r j)) = ix1 j := funext fun a => Fin.ext (by
    match a with
    | ⟨0, _⟩ => rfl)
  -- the three thirds of the feature row, in the specification's terms
  have h1 : ∀ k : Fin 128, val_main_v20 (F := Ideal) x0 x1 (ix2 r ⟨k.val, by omega⟩) = nodeRow x0 (x1 (ix2 0 r)) k :=
    fun k => by rw [cat0, row0]
  have h2 : ∀ k : Fin 128, val_main_v20 (F := Ideal) x0 x1 (ix2 r ⟨128 + k.val, by omega⟩) = nodeRow x0 (x1 (ix2 1 r)) k :=
    fun k => by rw [cat1, row1]
  have h3 : ∀ k : Fin 128, val_main_v20 (F := Ideal) x0 x1 (ix2 r ⟨256 + k.val, by omega⟩)
      = max (nodeRow x0 (x1 (ix2 0 r)) k - nodeRow x0 (x1 (ix2 1 r)) k)
          (-(nodeRow x0 (x1 (ix2 0 r)) k - nodeRow x0 (x1 (ix2 1 r)) k)) :=
    fun k => by rw [cat2, val_main_v19_apply, val_main_v18_apply, row0, row1]; rfl
  rw [val_main_v25_apply, val_main_v24_apply, val_main_v21_apply, val_main_v23_apply, val_main_v22_apply,
    val_main_call0_v0_apply, val_main_call0_cst_apply, eb]
  simp only [el, er]
  -- a sum over 384 is the sum of its three 128-parts
  rw [sum_384_split]
  unfold hiddenOf
  simp only [h1, h2, h3]
  rfl

/-- The result at edge `r`: the hidden row against the second weight column, plus the second bias. -/
theorem logit_eq (x0 : FVec Ideal ⟨2, ![100000, 128]⟩ .f32) (x1 : IVec ⟨2, ![2, 500000]⟩ 32) (x2 : FVec Ideal ⟨2, ![384, 128]⟩ .f32)
    (x3 : FVec Ideal ⟨1, ![128]⟩ .f32) (x4 : FVec Ideal ⟨2, ![128, 1]⟩ .f32) (x5 : FVec Ideal ⟨1, ![1]⟩ .f32) (r : Fin 500000) :
    val_main_v30 (F := Ideal) x0 x1 x2 x3 x4 x5 (ix1 r)
      = edgeLogit x0 x2 x3 x4 x5 (x1 (ix2 0 r)) (x1 (ix2 1 r)) := by
  -- the last reshape reads (r, 0): r / 1 = r
  have e30 : idx_main_v30 (ix1 r) = ix2 r (0 : Fin 1) := funext fun a => Fin.ext (by
    match a with
    | ⟨0, _⟩ => exact Nat.div_one _
    | ⟨1, _⟩ => rfl)
  have el : ∀ k : Fin 128, lidx_main_v26 (ix2 r (0 : Fin 1)) k = ix2 r k := fun k => funext fun a => Fin.ext (by
    match a with
    | ⟨0, _⟩ => rfl
    | ⟨1, _⟩ => rfl)
  have er : ∀ k : Fin 128, ridx_main_v26 (ix2 r (0 : Fin 1)) k = ix2 k (0 : Fin 1) := fun k => funext fun a => Fin.ext (by
    match a with
    | ⟨0, _⟩ => rfl
    | ⟨1, _⟩ => rfl)
  have eb : idx_main_v27 (idx_main_v28 (ix2 r (0 : Fin 1))) = ix1 (0 : Fin 1) := funext fun a => Fin.ext (by
    match a with
    | ⟨0, _⟩ => rfl)
  rw [val_main_v30_apply, e30, val_main_v29_apply, val_main_v26_apply, val_main_v28_apply, val_main_v27_apply, eb]
  simp only [el, er, hidden_eq]
  rfl

/-- The reference's last stage, at `Ideal`, is `G` of its six argument arrays. -/
theorem ref_eq (x0 : FVec Ideal ⟨2, ![100000, 128]⟩ .f32) (x1 : IVec ⟨2, ![2, 500000]⟩ 32) (x2 : FVec Ideal ⟨2, ![384, 128]⟩ .f32)
    (x3 : FVec Ideal ⟨1, ![128]⟩ .f32) (x4 : FVec Ideal ⟨2, ![128, 1]⟩ .f32) (x5 : FVec Ideal ⟨1, ![1]⟩ .f32) :
    val_main_v30 (F := Ideal) x0 x1 x2 x3 x4 x5 = Cert.EdgeMlp.G x0 x1 x2 x3 x4 x5 := by
  funext i
  obtain ⟨r, rfl⟩ : ∃ r : Fin 500000, i = ix1 r := ⟨i 0, eq_ix1 i⟩
  rw [logit_eq]
  rfl

end Cert.EdgeMlp.RefSide

end
-- ==== Proof.PreRange.lean ====
/-
  What the precondition says of the edge words: every word of the index array passes the range test
  −100000 ≤ u < 100000 (signed).
-/
import proofs.«420864_j19636590477699_2_alg».proof.Pre_finite_inputs
import proofs.«420864_j19636590477699_2_alg».proof.Proof.Spec
import Idealize.ShloMosaic.Lib.ReduceAll

noncomputable section

namespace Cert.EdgeMlp.PreRange

open Idealize.ShloMosaic Idealize.ShloMosaic.ValueIdx

/-- Where the printed precondition is all ones, every edge word is in range. -/
theorem range_of_pre [Cert.Pre_finite_inputs.Facts] (x0 : FVec Ideal ⟨2, ![100000, 128]⟩ .f32) (x1 : IVec ⟨2, ![2, 500000]⟩ 32)
    (x2 : FVec Ideal ⟨2, ![384, 128]⟩ .f32) (x3 : FVec Ideal ⟨1, ![128]⟩ .f32) (x4 : FVec Ideal ⟨2, ![128, 1]⟩ .f32)
    (x5 : FVec Ideal ⟨1, ![1]⟩ .f32)
    (h : Cert.Pre_finite_inputs.fn (F := Ideal) x0 x1 x2 x3 x4 x5 = fun _ => 1#1) (i : (⟨2, ![2, 500000]⟩ : Shape).Idx) :
    Cert.EdgeMlp.rangeWord (x1 i) = 1#1 := by
  -- A result array of rank 0 has exactly one index.
  haveI : Subsingleton (⟨0, ![]⟩ : Shape).Idx := ⟨fun a b => funext fun d => d.elim0⟩
  -- The precondition's one word is 1.
  have h0 := congrFun h ValueIdx.ix0
  -- That word is a conjunction whose last conjunct is the conjunction, over all 2 × 500000 words, of the range tests;
  -- a conjunction is 1 only if both of its sides are.
  have h1 := (IntOp.andi_eq_one.1 h0).2
  -- A conjunction over every index that is 1 met a 1 at every index, so at `i`.
  have h2 := Host.reduce_andi_all _ _ _ _ _ h1 i
  -- The test at `i` compares `x1 i` with the two constants −100000 and 100000, each spread to every index:
  -- this is the range test of the word `x1 i`.
  exact h2

end Cert.EdgeMlp.PreRange

end
-- ==== Proof.KernelRows.lean ====
/-
  The two gathered arrays the region finds, read at an index. Before the region the host lines cut each end-point row
  out of the index array, pad it with zeros to 507904 words, normalise each word (a negative one counts from the end),
  gather the table's rows at the normalised words, and keep a gathered row only where the normalised word is in
  [0, 99999] (elsewhere a fill value). Where the word passes that test the row is the table's row at the clamped word;
  a change of float format is the identity over the extended reals.
-/
import proofs.«420864_j19636590477699_2_alg».proof.Proof.Gen.KernelIdeal.Frame
import proofs.«420864_j19636590477699_2_alg».proof.Proof.Spec
import proofs.«420864_j19636590477699_2_alg».proof.Proof.LibGatherRows2
import Idealize.ShloMosaic.Lib.StableHlo.Run
import Idealize.ShloMosaic.Lib.Pipeline.Value
import Idealize.ShloMosaic.Lib.ReduceAll

noncomputable section

namespace Cert.KernelIdeal.EdgeValue

open Idealize.ShloMosaic Idealize.ShloMosaic.ValueIdx Idealize.ShloMosaic.TcCoe Idealize.SL.Sem Idealize.ShloMosaic.StableHlo
open Cert.KernelIdeal Cert.KernelIdeal.Gen Cert.EdgeMlp

/-! ## A conjunction of ones is one -/

/-- A left fold by `and` from 1 over words that are all 1 is 1. -/
theorem foldl_andi_of_all_one {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, hl => by
    refine foldl_andi_of_all_one f l _ ?_ (fun n hn => hl n (List.mem_cons_of_mem _ hn))
    exact IntOp.andi_eq_one.2 ⟨hi, hl a (List.mem_cons_self ..)⟩

/-- A reduction by `and` from the constant 1 is 1 at `j` when every operand word that reduces into `j` is 1. -/
theorem reduce_andi_of_all_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl]
  refine foldl_andi_of_all_one x _ _ hinit fun i hi => hx i ?_
  have := (List.mem_filter.1 hi).2
  simpa using this

/-! ## The host terms -/

variable {F : FTy → Type} [FloatOps F]

/-- Row `off 0` of the index array, as 500000 words padded with zeros to 507904. -/
def padWords (off : Fin 2 → Nat) (h : S2x500000.Slices off S1x500000) (x1 : IVec S2x500000 32) : IVec S507904 32 :=
  pad S507904 ![0] ![7904] ![0] (shapeCast S500000 (extractStridedSlice S1x500000 off x1 h) shapeCasts_S1x500000_S500000)
    (id (constantI S_ 32 0#32)) pads_S500000_S507904_079040 h_S_

/-- The normalised words: a negative word counts from the end of the 100000 rows. -/
def normWords (p : IVec S507904 32) : IVec S507904 32 :=
  select (cmpi .slt p (broadcastInDim S507904 ![] bcast_S_S507904 (constantI S_ 32 0#32)))
    (addi p (broadcastInDim S507904 ![] bcast_S_S507904 (constantI S_ 32 100000#32))) p

/-- The normalised words as a column of start indices. -/
def idxCol (p : IVec S507904 32) : IVec S507904x1 32 :=
  broadcastInDim S507904x1 ![0] bcast_S507904_S507904x1_0 (normWords p)

/-- Per row, whether the start index is in [0, 99999]. -/
def rowOk (p : IVec S507904 32) : IVec S507904 1 :=
  Host.reduce IntOp.andi
    (andi (cmpi .sge (idxCol p) (broadcastInDim S507904x1 ![] bcast_S_S507904x1 (constantI S_ 32 0#32)))
      (cmpi .sle (idxCol p) (broadcastInDim S507904x1 ![0, 1] bcast_S1x1_S507904x1_0_1
        (broadcastInDim S1x1 ![1] bcast_S1_S1x1_1 (constantI S1 32 99999#32)))))
    (constantI S_ 1 1#1) reducesTo_S507904x1_S507904_d1 h_S_

/-- The fill-mode gather: the table's rows at the start indices where in range, the fill value elsewhere. -/
def takeRows (x0 : FVec F S100000x128 .f32) (p : IVec S507904 32) : FVec F S507904x128 .f32 :=
  select (broadcastInDim S507904x128 ![0] bcast_S507904_S507904x128_0 (rowOk p))
    (Host.gather gather_S100000x128_S507904x1_S507904x128_1_0_n_n_0_1_1128 x0 (idxCol p))
    (broadcastInDim S507904x128 ![] bcast_S_S507904x128 (constant S_ .f32 0x7FC00000#32))

/-! ## Read at an index -/

/-- A normalised word is the specification's. -/
theorem normWords_apply (p : IVec S507904 32) (r : Fin 507904) : normWords p (ix1 r) = wrapWord (p (ix1 r)) := rfl

/-- The start index of row `r`. -/
theorem idxCol_apply (p : IVec S507904 32) (r : Fin 507904) : idxCol p (ix2 r (0 : Fin 1)) = wrapWord (p (ix1 r)) := by
  unfold idxCol
  refine (broadcastInDim_apply _ bcast_S507904_S507904x1_0 _ (ix2 r (0 : Fin 1)) (ix1 r) (fun a => ?_)).trans (normWords_apply p r)
  match a with
  | ⟨0, _⟩ => show r.val = if (507904 : Nat) = 1 then 0 else r.val; rw [if_neg (by decide)]

/-- A row whose word passes the range test is kept. -/
theorem rowOk_apply (p : IVec S507904 32) (r : Fin 507904) (hm : maskWord (p (ix1 r)) = 1#1) : rowOk p (ix1 r) = 1#1 := by
  unfold rowOk
  refine reduce_andi_of_all_one _ _ _ _ _ rfl fun i hi => ?_
  have hi0 : i 0 = r := by
    have := congrFun hi 0
    exact Fin.ext (by
      have e := Shape.ReducesTo.drop_apply_val_of_eq reducesTo_S507904x1_S507904_d1 i 0 0
      have e' : ((reducesTo_S507904x1_S507904_d1.drop i) 0 : Nat) = r.val := congrArg Fin.val this
      omega)
  obtain ⟨a, b, rfl⟩ : ∃ (a : Fin 507904) (b : Fin 1), i = ix2 a b := ⟨i 0, i 1, eq_ix2 i⟩
  have hb : b = 0 := Subsingleton.elim _ _
  subst hb
  have ha : a = r := hi0
  subst ha
  show IntOp.andi (IntOp.cmpi .sge (idxCol p (ix2 a 0)) _) (IntOp.cmpi .sle (idxCol p (ix2 a 0)) _) = 1#1
  rw [idxCol_apply]
  exact hm

/-- THE GATHERED ROW: where the word passes the range test, the table's row at the clamped normalised word. -/
theorem takeRows_apply (x0 : FVec Ideal S100000x128 .f32) (p : IVec S507904 32) (r : Fin 507904) (k : Fin 128)
    (hm : maskWord (p (ix1 r)) = 1#1) : takeRows x0 p (ix2 r k) = nodeRow x0 (p (ix1 r)) k := by
  unfold takeRows
  show Scalar.select (broadcastInDim S507904x128 ![0] bcast_S507904_S507904x128_0 (rowOk p) (ix2 r k)) _ _ = _
  have hok : broadcastInDim S507904x128 ![0] bcast_S507904_S507904x128_0 (rowOk p) (ix2 r k) = 1#1 := by
    refine (broadcastInDim_apply _ bcast_S507904_S507904x128_0 _ (ix2 r k) (ix1 r) (fun a => ?_)).trans (rowOk_apply p r hm)
    match a with
    | ⟨0, _⟩ => show r.val = if (507904 : Nat) = 1 then 0 else r.val; rw [if_neg (by decide)]
  rw [hok, select_one]
  refine (Cert.LibGatherRows2.gather_rows2_apply (N := 100000) (C := 128) (R := 507904) (by decide)
    gather_S100000x128_S507904x1_S507904x128_1_0_n_n_0_1_1128 rfl rfl rfl rfl rfl rfl rfl x0 (idxCol p) r k).trans ?_
  unfold nodeRow rowOf
  exact congrArg (fun w : BitVec 32 => x0 (ix2 (⟨min w.toInt.toNat (100000 - 1), by omega⟩ : Fin 100000) k)) (idxCol_apply p r)

/-- A padded word inside the first 500000 is the index array's. -/
theorem padWords_apply (off : Fin 2 → Nat) (h : S2x500000.Slices off S1x500000) (x1 : IVec S2x500000 32) (a : Fin 2)
    (ha : off 0 = a.val) (hb : off 1 = 0) (r : Fin 507904) (hr : r.val < 500000) :
    padWords off h x1 (ix1 r) = x1 (ix2 a ⟨r.val, hr⟩) := by
  unfold padWords pad
  have hin : ∀ b : Fin S500000.rank, (![0] : Fin 1 → Nat) b ≤ ((ix1 r : S507904.Idx) (b.cast pads_S500000_S507904_079040.1)).val
      ∧ (((ix1 r : S507904.Idx) (b.cast pads_S500000_S507904_079040.1)).val - (![0] : Fin 1 → Nat) b) % ((![0] : Fin 1 → Nat) b + 1) = 0
      ∧ (((ix1 r : S507904.Idx) (b.cast pads_S500000_S507904_079040.1)).val - (![0] : Fin 1 → Nat) b) / ((![0] : Fin 1 → Nat) b + 1) < S500000.size b := by
    intro b
    match b with
    | ⟨0, _⟩ => exact ⟨Nat.zero_le _, by show (r.val - 0) % (0 + 1) = 0; omega, by show (r.val - 0) / (0 + 1) < 500000; omega⟩
  rw [dif_pos hin]
  refine (shapeCast_apply _ shapeCasts_S1x500000_S500000 _ (ix2 (0 : Fin 1) ⟨r.val, hr⟩) ?_).trans ?_
  · rw [Shape.rowMajor_val_two, Shape.rowMajor_val_one]
    show 0 * 500000 + r.val = (r.val - 0) / (0 + 1)
    omega
  · refine extractStridedSlice_apply off x1 h _ (ix2 a ⟨r.val, hr⟩) (fun ax => ?_)
    match ax with
    | ⟨0, _⟩ => show a.val = off 0 + 0; omega
    | ⟨1, _⟩ => show r.val = off 1 + r.val; omega

/-! ## The arrays as the region finds them -/

variable (m : (ℓ : Loc nD τ sig) → Buf (Elt Ideal) ℓ)

/-- The first gathered array: rows of the table at the first end points. -/
theorem V_rows0 (c : Dev nD) :
    (V m c main_v7 : S507904x128.Idx → EReal)
      = truncf (F := Ideal) .bf16 (takeRows (F := Ideal) (m ((c.tc : Thread nD τ).loc main_arg0))
          (padWords ![0, 0] slices_S2x500000_S1x500000_0_0 (m ((c.tc : Thread nD τ).loc main_arg1)))) bitsLt_bf16_f32 := by
  dsimp only [Gen.V, Gen.V0]
  simp only [Gen.hostOps0, Gen.hostOps0_1, Gen.hostOps0_2, Gen.hostOps0_3, Gen.hostOps0_4, Gen.hostOps0_5, Gen.hostOps0_6, Gen.hostOps0_7,
    List.flatten_cons, List.flatten_nil, List.append_nil, List.cons_append, List.nil_append]
  after_results_simp
  simp only [cast_eq]
  rfl

/-- The second gathered array: rows of the table at the second end points. -/
theorem V_rows1 (c : Dev nD) :
    (V m c main_v9 : S507904x128.Idx → EReal)
      = truncf (F := Ideal) .bf16 (takeRows (F := Ideal) (m ((c.tc : Thread nD τ).loc main_arg0))
          (padWords ![1, 0] slices_S2x500000_S1x500000_1_0 (m ((c.tc : Thread nD τ).loc main_arg1)))) bitsLt_bf16_f32 := by
  dsimp only [Gen.V, Gen.V0]
  simp only [Gen.hostOps0, Gen.hostOps0_1, Gen.hostOps0_2, Gen.hostOps0_3, Gen.hostOps0_4, Gen.hostOps0_5, Gen.hostOps0_6, Gen.hostOps0_7,
    List.flatten_cons, List.flatten_nil, List.append_nil, List.cons_append, List.nil_append]
  after_results_simp
  simp only [cast_eq]
  rfl

end Cert.KernelIdeal.EdgeValue

end
-- ==== Proof.KernelWeights.lean ====
/-
  The weight arrays the region finds, read at an index. The host lines before the region slice the [384, 128] first
  weight matrix into its three 128-row parts and change float format (the identity over the extended reals); the second
  weight column only changes format.
-/
import proofs.«420864_j19636590477699_2_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.EdgeValue

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ)

/-- Rows 0–127 of the first weight matrix. -/
theorem V_w1a (c : Dev nD) (k j : Fin 128) :
    (V m c main_v11 : S128x128.Idx → EReal) (ix2 k j)
      = (m ((c.tc : Thread nD τ).loc main_arg2) : S384x128.Idx → EReal) (ix2 ⟨k.val, by omega⟩ j) := by
  -- The array the region finds: the 128-row slice of the first weight matrix at row offset 0, its float format changed.
  have e : @Eq (FVec Ideal S128x128 .bf16) (V m c main_v11)
      (truncf .bf16 (extractStridedSlice S128x128 ![0, 0] (m ((c.tc : Thread nD τ).loc main_arg2) : FVec Ideal S384x128 .f32)
        slices_S384x128_S128x128_0_0) bitsLt_bf16_f32) := by
    dsimp only [Gen.V, Gen.V0]
    simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
    after_results_simp
  refine (congrFun e _).trans ?_
  -- Over the extended reals a change of float format is the identity; the slice at (k, j) is the matrix at (0 + k, j).
  exact extractStridedSlice_apply ![0, 0] (m ((c.tc : Thread nD τ).loc main_arg2) : FVec Ideal S384x128 .f32)
    slices_S384x128_S128x128_0_0 (ix2 k j) (ix2 ⟨k.val, by omega⟩ j) (fun a => match a with
      | ⟨0, _⟩ => by show k.val = 0 + k.val; omega
      | ⟨1, _⟩ => by show j.val = 0 + j.val; omega)

/-- Rows 128–255 of the first weight matrix. -/
theorem V_w1b (c : Dev nD) (k j : Fin 128) :
    (V m c main_v13 : S128x128.Idx → EReal) (ix2 k j)
      = (m ((c.tc : Thread nD τ).loc main_arg2) : S384x128.Idx → EReal) (ix2 ⟨128 + k.val, by omega⟩ j) := by
  -- The array the region finds: the 128-row slice of the first weight matrix at row offset 128, its float format changed.
  have e : @Eq (FVec Ideal S128x128 .bf16) (V m c main_v13)
      (truncf .bf16 (extractStridedSlice S128x128 ![128, 0] (m ((c.tc : Thread nD τ).loc main_arg2) : FVec Ideal S384x128 .f32)
        slices_S384x128_S128x128_128_0) bitsLt_bf16_f32) := by
    dsimp only [Gen.V, Gen.V0]
    simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
    after_results_simp
  refine (congrFun e _).trans ?_
  -- Over the extended reals a change of float format is the identity; the slice at (k, j) is the matrix at (128 + k, j).
  exact extractStridedSlice_apply ![128, 0] (m ((c.tc : Thread nD τ).loc main_arg2) : FVec Ideal S384x128 .f32)
    slices_S384x128_S128x128_128_0 (ix2 k j) (ix2 ⟨128 + k.val, by omega⟩ j) (fun a => match a with
      | ⟨0, _⟩ => by show 128 + k.val = 128 + k.val; omega
      | ⟨1, _⟩ => by show j.val = 0 + j.val; omega)

/-- Rows 256–383 of the first weight matrix. -/
theorem V_w1c (c : Dev nD) (k j : Fin 128) :
    (V m c main_v15 : S128x128.Idx → EReal) (ix2 k j)
      = (m ((c.tc : Thread nD τ).loc main_arg2) : S384x128.Idx → EReal) (ix2 ⟨256 + k.val, by omega⟩ j) := by
  -- The array the region finds: the 128-row slice of the first weight matrix at row offset 256, its float format changed.
  have e : @Eq (FVec Ideal S128x128 .bf16) (V m c main_v15)
      (truncf .bf16 (extractStridedSlice S128x128 ![256, 0] (m ((c.tc : Thread nD τ).loc main_arg2) : FVec Ideal S384x128 .f32)
        slices_S384x128_S128x128_256_0) bitsLt_bf16_f32) := by
    dsimp only [Gen.V, Gen.V0]
    simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
    after_results_simp
  refine (congrFun e _).trans ?_
  -- Over the extended reals a change of float format is the identity; the slice at (k, j) is the matrix at (256 + k, j).
  exact extractStridedSlice_apply ![256, 0] (m ((c.tc : Thread nD τ).loc main_arg2) : FVec Ideal S384x128 .f32)
    slices_S384x128_S128x128_256_0 (ix2 k j) (ix2 ⟨256 + k.val, by omega⟩ j) (fun a => match a with
      | ⟨0, _⟩ => by show 256 + k.val = 256 + k.val; omega
      | ⟨1, _⟩ => by show j.val = 0 + j.val; omega)

/-- The second weight column. -/
theorem V_w2 (c : Dev nD) (j : Fin 128) :
    (V m c main_v16 : S128x1.Idx → EReal) (ix2 j (0 : Fin 1))
      = (m ((c.tc : Thread nD τ).loc main_arg4) : S128x1.Idx → EReal) (ix2 j (0 : Fin 1)) := by
  -- The array the region finds: the second weight column, its float format changed.
  have e : @Eq (FVec Ideal S128x1 .bf16) (V m c main_v16)
      (truncf .bf16 (m ((c.tc : Thread nD τ).loc main_arg4) : FVec Ideal S128x1 .f32) bitsLt_bf16_f32) := by
    dsimp only [Gen.V, Gen.V0]
    simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
    after_results_simp
  -- Over the extended reals a change of float format is the identity.
  exact congrFun e _

end Cert.KernelIdeal.EdgeValue

end
-- ==== Proof.LibMatmulPlain.lean ====
/-
  A plain matrix product read at an index. For dimension numbers that contract axis 1 of an [M, K] left operand with
  axis 0 of a [K, N] right operand (no batch axes), a `tpu.matmul` into the zero accumulator, over the extended reals,
  has at (p, q) the sum over k of left (p, k) times right (k, q).
-/
import Idealize.ShloMosaic.Lib.ValueIdx
import Idealize.ShloMosaic.PureOps.Ideal.Laws

noncomputable section

namespace Cert.LibMatmulPlain

open Idealize.ShloMosaic Idealize.ShloMosaic.ValueIdx

variable {M K N : Nat}

/-- The dimension numbers of a plain product, as a record over its well-formedness evidence. -/
abbrev plainDims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ := ⟨[1], [0], [0], [1], [], [], wf⟩

variable (wf : DotDims.WF (⟨2, ![M, K]⟩ : Shape) ⟨2, ![K, N]⟩ ⟨2, ![M, N]⟩ [1] [0] [0] [1] [] [])

theorem lhs_axis0 (j : (⟨2, ![M, N]⟩ : Shape).Idx) (q : (plainDims wf).contr.Idx) :
    ((plainDims wf).lhsIdx j q 0).val = (j 0).val := by
  unfold DotDims.lhsIdx
  rw [dif_neg (show ¬(0 : Fin (⟨2, ![M, K]⟩ : Shape).rank) ∈ (plainDims wf).lhsBatch from List.not_mem_nil),
    dif_pos (show (0 : Fin (⟨2, ![M, K]⟩ : Shape).rank) ∈ (plainDims wf).lhsNonContracting from List.mem_singleton.mpr rfl)]
  rfl
theorem lhs_axis1 (j : (⟨2, ![M, N]⟩ : Shape).Idx) (q : (plainDims wf).contr.Idx) :
    ((plainDims wf).lhsIdx j q 1).val = (q ⟨0, Nat.one_pos⟩).val :=
  (plainDims wf).lhsIdx_val_of_single rfl j q
theorem rhs_axis0 (j : (⟨2, ![M, N]⟩ : Shape).Idx) (q : (plainDims wf).contr.Idx) :
    ((plainDims wf).rhsIdx j q 0).val = (q ⟨0, Nat.one_pos⟩).val :=
  (plainDims wf).rhsIdx_val_of_single rfl j q
theorem rhs_axis1 (j : (⟨2, ![M, N]⟩ : Shape).Idx) (q : (plainDims wf).contr.Idx) :
    ((plainDims wf).rhsIdx j q 1).val = (j 1).val := by
  unfold DotDims.rhsIdx
  rw [dif_neg (show ¬(1 : Fin (⟨2, ![K, N]⟩ : Shape).rank) ∈ (plainDims wf).rhsBatch from List.not_mem_nil),
    dif_pos (show (1 : Fin (⟨2, ![K, N]⟩ : Shape).rank) ∈ (plainDims wf).rhsNonContracting from List.mem_singleton.mpr rfl)]
  rfl

/-- THE PRODUCT AT (p, q), into the zero accumulator: the sum over the contracted coordinate. -/
theorem matmul_zero_plain_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (plainDims wf) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k := funext fun a => Fin.ext (by
    match a with
    | ⟨0, _⟩ => exact lhs_axis0 wf _ _
    | ⟨1, _⟩ => exact (lhs_axis1 wf _ _).trans hk)
  have er : (plainDims wf).rhsIdx (ix2 p q) ((contrEquiv1 (plainDims wf) K rfl rfl).symm k) = ix2 k q := funext fun a => Fin.ext (by
    match a with
    | ⟨0, _⟩ => exact (rhs_axis0 wf _ _).trans hk
    | ⟨1, _⟩ => exact rhs_axis1 wf _ _)
  rw [el, er]

end Cert.LibMatmulPlain

end
-- ==== Proof.Payload.lean ====
/-
  The kernel body's one stored value, read at a row. For a block of 8192 edges, row `p` of the stored vector is the
  logit built from row `p` of the two gathered blocks, the three weight blocks, the bias, the second weight column and
  its bias: over the extended reals each `tpu.matmul` into a zero accumulator is a plain sum of products, a change of
  float format is the identity, and the broadcasts read the bias at the column.
-/
import proofs.«420864_j19636590477699_2_alg».proof.Proof.Gen.KernelIdeal.Skeleton
import proofs.«420864_j19636590477699_2_alg».proof.Proof.Spec
import proofs.«420864_j19636590477699_2_alg».proof.Proof.LibMatmulPlain
import Idealize.ShloMosaic.Lib.Pipeline.Value
import Idealize.ShloMosaic.Lib.ValueLayout

noncomputable section

namespace Cert.KernelIdeal.EdgeValue

open Idealize.ShloMosaic Idealize.ShloMosaic.ValueIdx Cert.KernelIdeal Cert.KernelIdeal.Gen Cert.EdgeMlp
/-- Row `p` of the body's stored vector is `logitOf` of row `p` of the blocks. -/
theorem pay_apply (x0 x1 : Vec Ideal S8192x128 .bf16) (x2 x3 x4 : Vec Ideal S128x128 .bf16) (x5 : Vec Ideal S128 .f32)
    (x6 : Vec Ideal S128x1 .bf16) (x7 : Vec Ideal S1 .f32) (p : Fin 8192) :
    k0_pay1 (F := Ideal) x0 x1 x2 x3 x4 x5 x6 x7 (ix1 p)
      = logitOf (fun k => x0 (ix2 p k)) (fun k => x1 (ix2 p k)) (fun k j => x2 (ix2 k j)) (fun k j => x3 (ix2 k j))
          (fun k j => x4 (ix2 k j)) (fun j => x5 (ix1 j)) (fun j => x6 (ix2 j 0)) (x7 (ix1 0)) := by
  unfold k0_pay1 logitOf
  simp only [shapeCast_self]
  -- the reshape [8192, 1] → [8192] reads row p, column 0
  refine (shapeCast_apply _ Gen.shapeCasts_S8192x1_S8192 (ix1 p) (ix2 p (0 : Fin 1)) (by
    rw [Shape.rowMajor_val_two, Shape.rowMajor_val_one]; show p.val * 1 + 0 = p.val; omega)).trans ?_
  refine congrArg₂ (· + ·) ?_ ?_
  · -- the second product: hidden row p times the weight column
    refine (Cert.LibMatmulPlain.matmul_zero_plain_apply (M := 8192) (K := 128) (N := 1) (φ₁ := .bf16) (φ₂ := .bf16)
      Gen.dot_S8192x128_S128x1_S8192x1_1_0_0_1_n_n_wf none _ _ p 0).trans ?_
    refine Finset.sum_congr rfl fun j _ => congrArg₂ (· * ·) ?_ rfl
    -- the hidden unit (p, j)
    unfold hiddenOf
    show max ((((_ : EReal) + _) + _) + _) _ = _
    refine congrArg₂ max (congrArg₂ (· + ·) (congrArg₂ (· + ·) (congrArg₂ (· + ·) ?_ ?_) ?_) ?_) rfl
    · exact Cert.LibMatmulPlain.matmul_zero_plain_apply (M := 8192) (K := 128) (N := 128) (φ₁ := .bf16) (φ₂ := .bf16)
        Gen.dot_S8192x128_S128x128_S8192x128_1_0_0_1_n_n_wf none _ _ p j
    · exact Cert.LibMatmulPlain.matmul_zero_plain_apply (M := 8192) (K := 128) (N := 128) (φ₁ := .bf16) (φ₂ := .bf16)
        Gen.dot_S8192x128_S128x128_S8192x128_1_0_0_1_n_n_wf none _ _ p j
    · exact Cert.LibMatmulPlain.matmul_zero_plain_apply (M := 8192) (K := 128) (N := 128) (φ₁ := .bf16) (φ₂ := .bf16)
        Gen.dot_S8192x128_S128x128_S8192x128_1_0_0_1_n_n_wf none _ _ p j
    · -- the bias row, broadcast over the rows
      refine (broadcastTo_1b_ab_apply _ Gen.broadcasts_S1x128_S8192x128 p j).trans ?_
      exact shapeCast_a_1a_apply x5 Gen.shapeCasts_S128_S1x128 0 j
  · -- the second bias, broadcast over the rows
    refine (broadcastTo_apply _ Gen.broadcasts_S1x1_S8192x1 (ix2 p (0 : Fin 1)) (ix2 (0 : Fin 1) (0 : Fin 1)) (fun ax => by
      match ax with
      | ⟨0, _⟩ => rfl
      | ⟨1, _⟩ => rfl)).trans ?_
    exact shapeCast_a_1a_apply x7 Gen.shapeCasts_S1_S1x1 0 0

end Cert.KernelIdeal.EdgeValue

end
-- ==== Proof.KernelArray.lean ====
/-
  The kernel's output array after the run, as ONE function of the arrays the region finds. Grid point `t` writes rows
  8192·t … 8192·t + 8191 of the 507904-row output; row `i` holds the logit built from row `i` of the two gathered
  arrays and the whole weight arrays. The 62 blocks tile the array, so the whole array is that function; the host line
  after the region keeps its first 500000 rows.
-/
import proofs.«420864_j19636590477699_2_alg».proof.Proof.Gen.KernelIdeal.Frame
import proofs.«420864_j19636590477699_2_alg».proof.Proof.Spec
import proofs.«420864_j19636590477699_2_alg».proof.Proof.Payload
import Idealize.ShloMosaic.Lib.StableHlo.Run
import Idealize.ShloMosaic.Lib.Pipeline.Value

set_option maxRecDepth 16384

noncomputable section

namespace Cert.KernelIdeal.EdgeValue

open Idealize.ShloMosaic Idealize.ShloMosaic.ValueIdx Idealize.ShloMosaic.TcCoe Idealize.SL.Sem Idealize.ShloMosaic.StableHlo
open Idealize.ShloMosaic.Pipeline (Dat Cfg Window)
open Cert.KernelIdeal Cert.KernelIdeal.Gen Cert.EdgeMlp

variable (m : (ℓ : Loc nD τ sig) → Buf (Elt Ideal) ℓ) (ρ : Dev nD → PrngReg)

theorem hz1 : (![0] : Fin 1 → Nat) = fun _ => 0 := funext fun a => by fin_cases a; rfl
theorem hz2 : (![0, 0] : Fin 2 → Nat) = fun _ => 0 := funext fun a => by fin_cases a <;> rfl

/-- The output array as a function of the eight arrays the region stages: row `i` is the logit of row `i` of the two
    gathered arrays against the whole weight arrays. -/
def rowsLogit (zu zv : S507904x128.Idx → EReal) (wa wb wc : S128x128.Idx → EReal) (b1 : S128.Idx → EReal)
    (w2 : S128x1.Idx → EReal) (b2 : S1.Idx → EReal) : S507904.Idx → EReal :=
  fun i => logitOf (fun k => zu (ix2 (i 0) k)) (fun k => zv (ix2 (i 0) k)) (fun k j => wa (ix2 k j)) (fun k j => wb (ix2 k j))
    (fun k j => wc (ix2 k j)) (fun j => b1 (ix1 j)) (fun j => w2 (ix2 j 0)) (b2 (ix1 0))

/-- The printed index maps, decided over the 62 grid points: the two gathered windows move with the output window along
    the rows, every other window stays at block 0, and the output's block index is the point's number. -/
theorem idx_facts : ∀ t : Fin cfg0.N,
    win0_0.index t (0 : Fin 2) = win0_8.index t (0 : Fin 1) ∧ win0_0.index t (1 : Fin 2) = 0
    ∧ win0_1.index t (0 : Fin 2) = win0_8.index t (0 : Fin 1) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 1) = t.val :=
  (by decide +kernel : ∀ t : Fin grid0.N, _)

set_option maxHeartbeats 3200000 in
/-- WHAT POINT `t` WRITES BACK is block `t` of `rowsLogit` of the arrays as the region finds them. -/
theorem flushed_eq (c : Dev nD) (t : Fin cfg0.N) :
    (dats m 0 c).flushed 8 t = ((cfg0.win 8).blk t).view.read (Elt Ideal)
      (rowsLogit (V m c main_v7) (V m c main_v9) (V m c main_v11) (V m c main_v13) (V m c main_v15) (V m c main_arg3)
        (V m c main_v16) (V m c main_arg5)) := by
  show (cfg0.win 8).cut (grid0.coords t) ((dats m 0 c).after 8 t) = _
  rw [after0_8]
  unfold out0_8
  rw [View.canon_unit_zero hz1]
  simp only [View.ld_unit_zero (S := S8192x128) hz2, View.ld_unit_zero (S := S128x128) hz2, View.ld_unit_zero (S := S128) hz1,
    View.ld_unit_zero (S := S128x1) hz2, View.ld_unit_zero (S := S1) hz1]
  obtain ⟨e00, e01, e10, e11, e20, e21, e30, e31, e40, e41, e50, e60, e61, e70, e80⟩ := idx_facts t
  funext j
  obtain ⟨p, rfl⟩ : ∃ p : Fin 8192, j = ix1 p := ⟨j 0, eq_ix1 j⟩
  refine (pay_apply (iblk m c 0 t) (iblk m c 1 t) (iblk m c 2 t) (iblk m c 3 t) (iblk m c 4 t) (iblk m c 5 t) (iblk m c 6 t)
    (iblk m c 7 t) p).trans ?_
  show logitOf (fun k => V m c main_v7 (((cfg0.win 0).blk t).view.emb (ix2 p k)))
      (fun k => V m c main_v9 (((cfg0.win 1).blk t).view.emb (ix2 p k)))
      (fun k j => V m c main_v11 (((cfg0.win 2).blk t).view.emb (ix2 k j)))
      (fun k j => V m c main_v13 (((cfg0.win 3).blk t).view.emb (ix2 k j)))
      (fun k j => V m c main_v15 (((cfg0.win 4).blk t).view.emb (ix2 k j)))
      (fun j => V m c main_arg3 (((cfg0.win 5).blk t).view.emb (ix1 j)))
      (fun j => V m c main_v16 (((cfg0.win 6).blk t).view.emb (ix2 j 0)))
      (V m c main_arg5 (((cfg0.win 7).blk t).view.emb (ix1 0)))
    = rowsLogit (V m c main_v7) (V m c main_v9) (V m c main_v11) (V m c main_v13) (V m c main_v15) (V m c main_arg3)
        (V m c main_v16) (V m c main_arg5) (((cfg0.win 8).blk t).view.emb (ix1 p))
  -- a block's coordinate is its index times its extent plus the coordinate inside the block
  have g0 : ∀ k : Fin 128, ((cfg0.win 0).blk t).view.emb (ix2 p k) = ix2 ((((cfg0.win 8).blk t).view.emb (ix1 p)) 0) k :=
    fun k => funext fun a => Fin.ext (by
      match a with
      | ⟨0, _⟩ => show win0_0.index t (0 : Fin 2) * 8192 + 1 * p.val = win0_8.index t (0 : Fin 1) * 8192 + 1 * p.val; omega
      | ⟨1, _⟩ => show win0_0.index t (1 : Fin 2) * 128 + 1 * k.val = k.val; omega)
  have g1 : ∀ k : Fin 128, ((cfg0.win 1).blk t).view.emb (ix2 p k) = ix2 ((((cfg0.win 8).blk t).view.emb (ix1 p)) 0) k :=
    fun k => funext fun a => Fin.ext (by
      match a with
      | ⟨0, _⟩ => show win0_1.index t (0 : Fin 2) * 8192 + 1 * p.val = win0_8.index t (0 : Fin 1) * 8192 + 1 * p.val; omega
      | ⟨1, _⟩ => show win0_1.index t (1 : Fin 2) * 128 + 1 * k.val = k.val; omega)
  have g2 : ∀ k j : Fin 128, ((cfg0.win 2).blk t).view.emb (ix2 k j) = ix2 k j :=
    fun k j => funext fun a => Fin.ext (by
      match a with
      | ⟨0, _⟩ => show win0_2.index t (0 : Fin 2) * 128 + 1 * k.val = k.val; omega
      | ⟨1, _⟩ => show win0_2.index t (1 : Fin 2) * 128 + 1 * j.val = j.val; omega)
  have g3 : ∀ k j : Fin 128, ((cfg0.win 3).blk t).view.emb (ix2 k j) = ix2 k j :=
    fun k j => funext fun a => Fin.ext (by
      match a with
      | ⟨0, _⟩ => show win0_3.index t (0 : Fin 2) * 128 + 1 * k.val = k.val; omega
      | ⟨1, _⟩ => show win0_3.index t (1 : Fin 2) * 128 + 1 * j.val = j.val; omega)
  have g4 : ∀ k j : Fin 128, ((cfg0.win 4).blk t).view.emb (ix2 k j) = ix2 k j :=
    fun k j => funext fun a => Fin.ext (by
      match a with
      | ⟨0, _⟩ => show win0_4.index t (0 : Fin 2) * 128 + 1 * k.val = k.val; omega
      | ⟨1, _⟩ => show win0_4.index t (1 : Fin 2) * 128 + 1 * j.val = j.val; omega)
  have g5 : ∀ j : Fin 128, ((cfg0.win 5).blk t).view.emb (ix1 j) = ix1 j :=
    fun j => funext fun a => Fin.ext (by
      match a with
      | ⟨0, _⟩ => show win0_5.index t (0 : Fin 1) * 128 + 1 * j.val = j.val; omega)
  have g6 : ∀ j : Fin 128, ((cfg0.win 6).blk t).view.emb (ix2 j (0 : Fin 1)) = ix2 j (0 : Fin 1) :=
    fun j => funext fun a => Fin.ext (by
      match a with
      | ⟨0, _⟩ => show win0_6.index t (0 : Fin 2) * 128 + 1 * j.val = j.val; omega
      | ⟨1, _⟩ => show win0_6.index t (1 : Fin 2) * 1 + 1 * 0 = 0; omega)
  have g7 : ((cfg0.win 7).blk t).view.emb (ix1 (0 : Fin 1)) = ix1 (0 : Fin 1) :=
    funext fun a => Fin.ext (by
      match a with
      | ⟨0, _⟩ => show win0_7.index t (0 : Fin 1) * 1 + 1 * 0 = 0; omega)
  simp only [g0, g1, g2, g3, g4, g5, g6, g7]
  rfl

/-- An index of the array is in point `t`'s block iff its coordinate is in the block's range. -/
theorem mem_blk (t : Fin cfg0.N) (i : S507904.Idx) :
    i ∈ ((cfg0.win 8).blk t).view.set
      ↔ ∀ a : Fin 1, win0_8.index t a * S8192.size a ≤ (i a).val ∧ (i a).val < win0_8.index t a * S8192.size a + S8192.size a := by
  show i ∈ ((View.whole main_v17).slice (win0_8.rect t)).set ↔ _
  rw [View.set_slice_whole, Rect.mem_set_unit]
  exact Iff.rfl

/-- The 62 blocks of 8192 rows tile the 507904 rows: row `i` is in block `i / 8192`. -/
theorem cover (i : S507904.Idx) : ∃ t : Fin cfg0.N, (cfg0.win 8).flush t = true ∧ i ∈ ((cfg0.win 8).blk t).view.set := by
  have hi : (i 0).val < 507904 := (i 0).isLt
  have hlt : (i 0).val / 8192 < cfg0.N := by show _ < grid0.N; rw [N_0]; omega
  refine ⟨⟨(i 0).val / 8192, hlt⟩, flush0_8 _, ?_⟩
  rw [mem_blk]
  intro a
  obtain ⟨-, -, -, -, -, -, -, -, -, -, -, -, -, -, e80⟩ := idx_facts ⟨(i 0).val / 8192, hlt⟩
  match a with
  | ⟨0, _⟩ =>
    show win0_8.index ⟨(i 0).val / 8192, hlt⟩ (0 : Fin 1) * 8192 ≤ (i 0).val
      ∧ (i 0).val < win0_8.index ⟨(i 0).val / 8192, hlt⟩ (0 : Fin 1) * 8192 + 8192
    have e : win0_8.index ⟨(i 0).val / 8192, hlt⟩ (0 : Fin 1) = (i 0).val / 8192 := e80
    omega

/-- THE ARRAY after the run: `rowsLogit` of the arrays as the region finds them. -/
theorem final (c : Dev nD) :
    (dats m 0 c).arrAt 8 cfg0.N
      = rowsLogit (V m c main_v7) (V m c main_v9) (V m c main_v11) (V m c main_v13) (V m c main_v15) (V m c main_arg3)
          (V m c main_v16) (V m c main_arg5) :=
  (dats m 0 c).arrAt_eq_of_cover 8 _ (fun t _ => flushed_eq m c t) cover

/-- The host line after the region keeps the first 500000 rows of the output array. -/
theorem tail_result (c : Dev nD) :
    @Eq (FVec Ideal S500000 .f32) (Pipeline.afterTail₀ cfgs (dats m) 0 (V0 m) [hostOps1] c main_v18)
      (extractStridedSlice S500000 ![0]
        (rowsLogit (V m c main_v7) (V m c main_v9) (V m c main_v11) (V m c main_v13) (V m c main_v15) (V m c main_arg3)
          (V m c main_v16) (V m c main_arg5)) slices_S507904_S500000_0) := by
  unfold Pipeline.afterTail₀
  show StableHlo.after hostOps1 _ (Proc.devRef .tc main_v18) = _
  after_results
  refine congrArg (fun a : FVec Ideal S507904 .f32 => extractStridedSlice S500000 ![0] a slices_S507904_S500000_0) ?_
  exact (Pipeline.withArrays_arr spec0 launch0.win.arr_inj c _ _ 8).trans (final m c)

end Cert.KernelIdeal.EdgeValue

end
-- ==== Proof.KernelRun.lean ====
/-
  The idealized kernel's run, read: its result array is the edge decoder `G` of the argument arrays.
  Under the precondition every edge word is in [−100000, 100000), so every gathered row among the first 500000 is the
  node table's row at the normalised word; the weight parts are the rows of the first weight matrix; so row `i` of the
  kernel's output array, for `i < 500000`, is the logit of edge `i`, and the host slice keeps exactly those rows.
-/
import proofs.«420864_j19636590477699_2_alg».proof.Defs
import proofs.«420864_j19636590477699_2_alg».proof.Proof.Gen.KernelIdeal.Frame
import proofs.«420864_j19636590477699_2_alg».proof.Proof.Gen.Pre_finite_inputs
import proofs.«420864_j19636590477699_2_alg».proof.Proof.Spec
import proofs.«420864_j19636590477699_2_alg».proof.Proof.PreRange
import proofs.«420864_j19636590477699_2_alg».proof.Proof.KernelRows
import proofs.«420864_j19636590477699_2_alg».proof.Proof.KernelWeights
import proofs.«420864_j19636590477699_2_alg».proof.Proof.KernelArray

set_option maxRecDepth 65536

noncomputable section

namespace Cert.KernelIdeal.EdgeValue

open Idealize.ShloMosaic Idealize.ShloMosaic.ValueIdx Idealize.ShloMosaic.TcCoe Idealize.SL.Sem Idealize.ShloMosaic.StableHlo
open Cert.KernelIdeal Cert.KernelIdeal.Gen Cert.EdgeMlp

variable (m : (ℓ : Loc nD τ sig) → Buf (Elt Ideal) ℓ) (ρ : Dev nD → PrngReg)

/-- The argument arrays at their literal types. -/
abbrev zArg (c : Dev nD) : FVec Ideal S100000x128 .f32 := m ((c.tc : Thread nD τ).loc main_arg0)
abbrev eArg (c : Dev nD) : IVec S2x500000 32 := m ((c.tc : Thread nD τ).loc main_arg1)
abbrev w1Arg (c : Dev nD) : FVec Ideal S384x128 .f32 := m ((c.tc : Thread nD τ).loc main_arg2)
abbrev b1Arg (c : Dev nD) : FVec Ideal S128 .f32 := m ((c.tc : Thread nD τ).loc main_arg3)
abbrev w2Arg (c : Dev nD) : FVec Ideal S128x1 .f32 := m ((c.tc : Thread nD τ).loc main_arg4)
abbrev b2Arg (c : Dev nD) : FVec Ideal S1 .f32 := m ((c.tc : Thread nD τ).loc main_arg5)

/-- Under the precondition, row `r < 500000` of the first gathered array is the node row of edge `r`'s first word. -/
theorem rows0_eq (hpre : Cert.Pre_KernelIdeal m) (c : Dev nD) (r : Fin 507904) (hr : r.val < 500000) (k : Fin 128) :
    (V m c main_v7 : S507904x128.Idx → EReal) (ix2 r k) = nodeRow (zArg m c) (eArg m c (ix2 0 ⟨r.val, hr⟩)) k := by
  have e : @Eq (FVec Ideal S507904x128 .bf16) (V m c main_v7)
      (truncf (F := Ideal) .bf16 (takeRows (F := Ideal) (zArg m c) (padWords ![0, 0] slices_S2x500000_S1x500000_0_0 (eArg m c)))
        bitsLt_bf16_f32) := V_rows0 m c
  refine (congrFun e (ix2 r k)).trans ((truncf_apply (ψ := .bf16)
    (takeRows (F := Ideal) (zArg m c) (padWords ![0, 0] slices_S2x500000_S1x500000_0_0 (eArg m c))) bitsLt_bf16_f32 (ix2 r k)).trans ?_)
  have hw := padWords_apply ![0, 0] slices_S2x500000_S1x500000_0_0 (eArg m c) 0 rfl rfl r hr
  have hrange := Cert.EdgeMlp.PreRange.range_of_pre (zArg m c) (eArg m c) (w1Arg m c) (b1Arg m c) (w2Arg m c) (b2Arg m c) (hpre c)
    (ix2 0 ⟨r.val, hr⟩)
  refine (takeRows_apply _ _ r k (by rw [hw]; exact maskWord_of_rangeWord _ hrange)).trans ?_
  rw [hw]

/-- Under the precondition, row `r < 500000` of the second gathered array is the node row of edge `r`'s second word. -/
theorem rows1_eq (hpre : Cert.Pre_KernelIdeal m) (c : Dev nD) (r : Fin 507904) (hr : r.val < 500000) (k : Fin 128) :
    (V m c main_v9 : S507904x128.Idx → EReal) (ix2 r k) = nodeRow (zArg m c) (eArg m c (ix2 1 ⟨r.val, hr⟩)) k := by
  have e : @Eq (FVec Ideal S507904x128 .bf16) (V m c main_v9)
      (truncf (F := Ideal) .bf16 (takeRows (F := Ideal) (zArg m c) (padWords ![1, 0] slices_S2x500000_S1x500000_1_0 (eArg m c)))
        bitsLt_bf16_f32) := V_rows1 m c
  refine (congrFun e (ix2 r k)).trans ((truncf_apply (ψ := .bf16)
    (takeRows (F := Ideal) (zArg m c) (padWords ![1, 0] slices_S2x500000_S1x500000_1_0 (eArg m c))) bitsLt_bf16_f32 (ix2 r k)).trans ?_)
  have hw := padWords_apply ![1, 0] slices_S2x500000_S1x500000_1_0 (eArg m c) 1 rfl rfl r hr
  have hrange := Cert.EdgeMlp.PreRange.range_of_pre (zArg m c) (eArg m c) (w1Arg m c) (b1Arg m c) (w2Arg m c) (b2Arg m c) (hpre c)
    (ix2 1 ⟨r.val, hr⟩)
  refine (takeRows_apply _ _ r k (by rw [hw]; exact maskWord_of_rangeWord _ hrange)).trans ?_
  rw [hw]

/-- THE RESULT: the first 500000 rows of the kernel's output array are `G` of the argument arrays. -/
theorem result_eq (hpre : Cert.Pre_KernelIdeal m) (c : Dev nD) :
    extractStridedSlice S500000 ![0]
        (rowsLogit (V m c main_v7) (V m c main_v9) (V m c main_v11) (V m c main_v13) (V m c main_v15) (V m c main_arg3)
          (V m c main_v16) (V m c main_arg5)) slices_S507904_S500000_0
      = G (zArg m c) (eArg m c) (w1Arg m c) (b1Arg m c) (w2Arg m c) (b2Arg m c) := by
  funext i
  obtain ⟨r, rfl⟩ : ∃ r : Fin 500000, i = ix1 r := ⟨i 0, eq_ix1 i⟩
  have hr : r.val < 507904 := by have := r.isLt; omega
  -- the slice at row r is the array at row r
  have hs := extractStridedSlice_apply ![0]
    (rowsLogit (V m c main_v7) (V m c main_v9) (V m c main_v11) (V m c main_v13) (V m c main_v15) (V m c main_arg3)
      (V m c main_v16) (V m c main_arg5) : FVec Ideal S507904 .f32)
    slices_S507904_S500000_0 (ix1 r) (ix1 (⟨r.val, hr⟩ : Fin 507904)) (fun a => by
    match a with
    | ⟨0, _⟩ => show r.val = 0 + r.val; omega)
  refine hs.trans ?_
  unfold rowsLogit G edgeLogit
  have h0 : (fun k : Fin 128 => (V m c main_v7 : S507904x128.Idx → EReal) (ix2 (⟨r.val, hr⟩ : Fin 507904) k))
      = nodeRow (zArg m c) (eArg m c (ix2 0 r)) := funext fun k => rows0_eq m hpre c ⟨r.val, hr⟩ r.isLt k
  have h1 : (fun k : Fin 128 => (V m c main_v9 : S507904x128.Idx → EReal) (ix2 (⟨r.val, hr⟩ : Fin 507904) k))
      = nodeRow (zArg m c) (eArg m c (ix2 1 r)) := funext fun k => rows1_eq m hpre c ⟨r.val, hr⟩ r.isLt k
  have ha : (fun k j : Fin 128 => (V m c main_v11 : S128x128.Idx → EReal) (ix2 k j))
      = fun k j => w1Arg m c (ix2 ⟨k.val, by omega⟩ j) := funext fun k => funext fun j => V_w1a m c k j
  have hb : (fun k j : Fin 128 => (V m c main_v13 : S128x128.Idx → EReal) (ix2 k j))
      = fun k j => w1Arg m c (ix2 ⟨128 + k.val, by omega⟩ j) := funext fun k => funext fun j => V_w1b m c k j
  have hc : (fun k j : Fin 128 => (V m c main_v15 : S128x128.Idx → EReal) (ix2 k j))
      = fun k j => w1Arg m c (ix2 ⟨256 + k.val, by omega⟩ j) := funext fun k => funext fun j => V_w1c m c k j
  have hb1 : (fun j : Fin 128 => (V m c main_arg3 : S128.Idx → EReal) (ix1 j)) = fun j => b1Arg m c (ix1 j) :=
    funext fun j => congrFun (V_main_arg3 m c) (ix1 j)
  have hw2 : (fun j : Fin 128 => (V m c main_v16 : S128x1.Idx → EReal) (ix2 j (0 : Fin 1))) = fun j => w2Arg m c (ix2 j 0) :=
    funext fun j => V_w2 m c j
  have hb2 : (V m c main_arg5 : S1.Idx → EReal) (ix1 (0 : Fin 1)) = b2Arg m c (ix1 0) := congrFun (V_main_arg5 m c) (ix1 0)
  show logitOf (fun k : Fin 128 => (V m c main_v7 : S507904x128.Idx → EReal) (ix2 (⟨r.val, hr⟩ : Fin 507904) k))
      (fun k : Fin 128 => (V m c main_v9 : S507904x128.Idx → EReal) (ix2 (⟨r.val, hr⟩ : Fin 507904) k))
      (fun k j : Fin 128 => (V m c main_v11 : S128x128.Idx → EReal) (ix2 k j))
      (fun k j : Fin 128 => (V m c main_v13 : S128x128.Idx → EReal) (ix2 k j))
      (fun k j : Fin 128 => (V m c main_v15 : S128x128.Idx → EReal) (ix2 k j))
      (fun j : Fin 128 => (V m c main_arg3 : S128.Idx → EReal) (ix1 j))
      (fun j : Fin 128 => (V m c main_v16 : S128x1.Idx → EReal) (ix2 j (0 : Fin 1)))
      ((V m c main_arg5 : S1.Idx → EReal) (ix1 (0 : Fin 1))) = _
  rw [h0, h1, ha, hb, hc, hb1, hw2, hb2]

/-- THE RUN, re-posted: every weakly fair execution of the idealized kernel terminates with its result buffer at `G`
    of the argument arrays and the arguments unchanged. The result buffer is read through the host slice after the
    region; the argument buffers as the frame reads them. -/
theorem kernel_run (hpre : Cert.Pre_KernelIdeal m) :
    θ_run defs (onTc (τ := τ) (main (F := Ideal))) ⟨m, fun _ => 0, ρ⟩ (fun r => ∀ c : Dev nD,
      r.2.mem ((c.tc : Thread nD τ).loc main_v18) = G (zArg m c) (eArg m c) (w1Arg m c) (b1Arg m c) (w2Arg m c) (b2Arg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v18 (Pipeline.mem_restRefs_of main_v18 (by decide) (by decide))).trans
        ((tail_result m c).trans (result_eq m hpre c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 5).trans (((dats m 0 c).arrAt_in 5 rfl _).trans ((A_eq m c 5).trans (V_main_arg3 m c))),
      ((h c).2 main_arg4 (Pipeline.mem_restRefs_of main_arg4 (by decide) (by decide))).trans (W_main_arg4 m (dats m) c),
      ((h c).1 7).trans (((dats m 0 c).arrAt_in 7 rfl _).trans ((A_eq m c 7).trans (V_main_arg5 m c)))⟩)
    (run_main m ρ)

end Cert.KernelIdeal.EdgeValue

end
-- ==== Proof.lean ====
/-
  The certificate of the edge decoder: a two-layer MLP on gathered node rows, the kernel against its jnp reference.

  Per edge the reference gathers two rows `zu`, `zv` of the node table at the edge's end points, concatenates
  `[zu, zv, |zu − zv|]` (384 columns), and computes `max (feat · W1 + b1) 0 · W2 + b2`. The kernel gathers the same rows on
  the host (padded to a multiple of 8192 edges), and in blocks of 8192 edges computes
  `max (zu · W1[0:128] + zv · W1[128:256] + |zu − zv| · W1[256:384] + b1) 0 · W2 + b2`, the result cut back to the 500000
  edges. Over the extended reals a change of float format is the identity and each product is a plain sum, so the two
  agree once a sum over the 384 rows of `W1` is split into its three 128-row parts — addition of extended reals is
  commutative and associative, so finiteness of the float inputs is not used. The two gathers differ only where an end
  point is outside the table's rows: the kernel's gather fills such a row, the reference's clamps it. The precondition
  keeps every end-point word in [−100000, 100000), where both read the same row (a negative word counting from the end).

  The three frames are the generated ones (the reference's from its generated run); the ideal pass rewrote nothing, so
  `preserves` is trivial; the value claim joins the kernel's run (read off its frame: blocks, cover, the host slice) and
  the reference's run at one function `G` of the argument arrays.
-/
import proofs.«420864_j19636590477699_2_alg».proof.Defs
import proofs.«420864_j19636590477699_2_alg».proof.Proof.Gen.Kernel
import proofs.«420864_j19636590477699_2_alg».proof.Proof.Gen.Kernel.Skeleton
import proofs.«420864_j19636590477699_2_alg».proof.Proof.Gen.Kernel.Launch
import proofs.«420864_j19636590477699_2_alg».proof.Proof.Gen.Kernel.Points
import proofs.«420864_j19636590477699_2_alg».proof.Proof.Gen.Kernel.Frame
import proofs.«420864_j19636590477699_2_alg».proof.Proof.Gen.KernelIdeal
import proofs.«420864_j19636590477699_2_alg».proof.Proof.Gen.KernelIdeal.Skeleton
import proofs.«420864_j19636590477699_2_alg».proof.Proof.Gen.KernelIdeal.Launch
import proofs.«420864_j19636590477699_2_alg».proof.Proof.Gen.KernelIdeal.Points
import proofs.«420864_j19636590477699_2_alg».proof.Proof.Gen.KernelIdeal.Frame
import proofs.«420864_j19636590477699_2_alg».proof.Proof.Gen.ReferenceIdeal
import proofs.«420864_j19636590477699_2_alg».proof.Proof.Gen.Pre_finite_inputs
import proofs.«420864_j19636590477699_2_alg».proof.Proof.Gen.ReferenceIdeal.Run
import proofs.«420864_j19636590477699_2_alg».proof.Proof.Gen.ReferenceIdeal.Read
import proofs.«420864_j19636590477699_2_alg».proof.Proof.Spec
import proofs.«420864_j19636590477699_2_alg».proof.Proof.RefSide
import proofs.«420864_j19636590477699_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The idealized reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end with the result `G` of the arguments: the
    kernel's run read off its frame, the reference's run read stage by stage. -/
theorem algebraic : Cert.algebraic_KernelIdeal_ReferenceIdeal := by
  intro m ρ m' ρ' hpre hagree
  refine ⟨_, Cert.KernelIdeal.EdgeValue.kernel_run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, (hagree c).1, (hagree c).2.1, (hagree c).2.2.1, (hagree c).2.2.2.1,
    (hagree c).2.2.2.2.1, (hagree c).2.2.2.2.2]
  exact Cert.EdgeMlp.RefSide.ref_eq _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
